-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x256x7x7 : Shape := ⟨4, ![5000, 256, 7, 7]⟩
abbrev S32x12544 : Shape := ⟨2, ![32, 12544]⟩
abbrev S32 : Shape := ⟨1, ![32]⟩
abbrev S124x12544 : Shape := ⟨2, ![124, 12544]⟩
abbrev S124 : Shape := ⟨1, ![124]⟩
abbrev S3x12544 : Shape := ⟨2, ![3, 12544]⟩
abbrev S3 : Shape := ⟨1, ![3]⟩
abbrev S7x12544 : Shape := ⟨2, ![7, 12544]⟩
abbrev S7 : Shape := ⟨1, ![7]⟩
abbrev S2x12544 : Shape := ⟨2, ![2, 12544]⟩
abbrev S2 : Shape := ⟨1, ![2]⟩
abbrev S_ : Shape := ⟨0, ![]⟩

class Facts : Prop where
  bcast_S_S5000x256x7x7 : S_.BroadcastsInDim S5000x256x7x7 (![] : Fin 0 → Fin S5000x256x7x7.rank)
  reducesTo_S5000x256x7x7_S_d0_1_2_3 : S5000x256x7x7.ReducesTo [0, 1, 2, 3] S_
  h_S_ : 0 < S_.numel
  bcast_S_S32x12544 : S_.BroadcastsInDim S32x12544 (![] : Fin 0 → Fin S32x12544.rank)
  reducesTo_S32x12544_S_d0_1 : S32x12544.ReducesTo [0, 1] S_
  bcast_S_S32 : S_.BroadcastsInDim S32 (![] : Fin 0 → Fin S32.rank)
  reducesTo_S32_S_d0 : S32.ReducesTo [0] S_
  bcast_S_S124x12544 : S_.BroadcastsInDim S124x12544 (![] : Fin 0 → Fin S124x12544.rank)
  reducesTo_S124x12544_S_d0_1 : S124x12544.ReducesTo [0, 1] S_
  bcast_S_S124 : S_.BroadcastsInDim S124 (![] : Fin 0 → Fin S124.rank)
  reducesTo_S124_S_d0 : S124.ReducesTo [0] S_
  bcast_S_S3x12544 : S_.BroadcastsInDim S3x12544 (![] : Fin 0 → Fin S3x12544.rank)
  reducesTo_S3x12544_S_d0_1 : S3x12544.ReducesTo [0, 1] S_
  bcast_S_S3 : S_.BroadcastsInDim S3 (![] : Fin 0 → Fin S3.rank)
  reducesTo_S3_S_d0 : S3.ReducesTo [0] S_
  bcast_S_S7x12544 : S_.BroadcastsInDim S7x12544 (![] : Fin 0 → Fin S7x12544.rank)
  reducesTo_S7x12544_S_d0_1 : S7x12544.ReducesTo [0, 1] S_
  bcast_S_S7 : S_.BroadcastsInDim S7 (![] : Fin 0 → Fin S7.rank)
  reducesTo_S7_S_d0 : S7.ReducesTo [0] S_
  bcast_S_S2x12544 : S_.BroadcastsInDim S2x12544 (![] : Fin 0 → Fin S2x12544.rank)
  reducesTo_S2x12544_S_d0_1 : S2x12544.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S7x12544 .f32) (main_arg8 : FVec F S7 .f32) (main_arg9 : FVec F S2x12544 .f32) (main_arg10 : FVec F S2 .f32) (main_v33 : IVec S_ 1) : IVec S_ 1 :=
  let main_v34 : FVec F S7x12544 .f32 := Host.absf main_arg7
  let main_cst_12 : FVec F S_ .f32 := constant S_ .f32 0x7F800000#32
  let main_v35 : FVec F S7x12544 .f32 := broadcastInDim S7x12544 ![] bcast_S_S7x12544 main_cst_12
  let main_v36 : IVec S7x12544 1 := cmpf .olt main_v34 main_v35
  let main_c_13 : IVec S_ 1 := constantI S_ 1 1#1
  let main_v37 : IVec S_ 1 := (fun x v => Host.reduce IntOp.andi x v reducesTo_S7x12544_S_d0_1 h_S_) main_v36 main_c_13
  let main_v38 : IVec S_ 1 := andi main_v33 main_v37
  let main_v39 : FVec F S7 .f32 := Host.absf main_arg8
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  let main_v44 : FVec F S2x12544 .f32 := Host.absf main_arg9
  let main_cst_16 : FVec F S_ .f32 := constant S_ .f32 0x7F800000#32
  let main_v45 : FVec F S2x12544 .f32 := broadcastInDim S2x12544 ![] bcast_S_S2x12544 main_cst_16
  let main_v46 : IVec S2x12544 1 := cmpf .olt main_v44 main_v45
  let main_c_17 : IVec S_ 1 := constantI S_ 1 1#1
  let main_v47 : IVec S_ 1 := (fun x v => Host.reduce IntOp.andi x v reducesTo_S2x12544_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S124 .f32) (main_arg5 : FVec F S3x12544 .f32) (main_arg6 : FVec F S3 .f32) (main_arg7 : FVec F S7x12544 .f32) (main_arg8 : FVec F S7 .f32) (main_arg9 : FVec F S2x12544 .f32) (main_arg10 : FVec F S2 .f32) (main_v13 : IVec S_ 1) (main_v16 : IVec S124x12544 1) : IVec S_ 1 :=
  let main_c_5 : IVec S_ 1 := constantI S_ 1 1#1
  let main_v17 : IVec S_ 1 := (fun x v => Host.reduce IntOp.andi x v reducesTo_S124x12544_S_d0_1 h_S_) main_v16 main_c_5
  let main_v18 : IVec S_ 1 := andi main_v13 main_v17
  let main_v19 : FVec F S124 .f32 := Host.absf main_arg4
  let main_cst_6 : FVec F S_ .f32 := constant S_ .f32 0x7F800000#32
  let main_v20 : FVec F S124 .f32 := broadcastInDim S124 ![] bcast_S_S124 main_cst_6
  let main_v21 : IVec S124 1 := cmpf .olt main_v19 main_v20
  let main_c_7 : IVec S_ 1 := constantI S_ 1 1#1
  let main_v22 : IVec S_ 1 := (fun x v => Host.reduce IntOp.andi x v reducesTo_S124_S_d0 h_S_) main_v21 main_c_7
  let main_v23 : IVec S_ 1 := andi main_v18 main_v22
  let main_v24 : FVec F S3x12544 .f32 := Host.absf main_arg5
  let main_cst_8 : FVec F S_ .f32 := constant S_ .f32 0x7F800000#32
  let main_v25 : FVec F S3x12544 .f32 := broadcastInDim S3x12544 ![] bcast_S_S3x12544 main_cst_8
  let main_v26 : IVec S3x12544 1 := cmpf .olt main_v24 main_v25
  let main_c_9 : IVec S_ 1 := constantI S_ 1 1#1
  let main_v27 : IVec S_ 1 := (fun x v => Host.reduce IntOp.andi x v reducesTo_S3x12544_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S5000x256x7x7 .f32) (main_arg1 : FVec F S32x12544 .f32) (main_arg2 : FVec F S32 .f32) (main_arg3 : FVec F S124x12544 .f32) (main_arg4 : FVec F S124 .f32) (main_arg5 : FVec F S3x12544 .f32) (main_arg6 : FVec F S3 .f32) (main_arg7 : FVec F S7x12544 .f32) (main_arg8 : FVec F S7 .f32) (main_arg9 : FVec F S2x12544 .f32) (main_arg10 : FVec F S2 .f32) : IVec S_ 1 :=
  let main_v0 : FVec F S5000x256x7x7 .f32 := Host.absf main_arg0
  let main_cst : FVec F S_ .f32 := constant S_ .f32 0x7F800000#32
  let main_v1 : FVec F S5000x256x7x7 .f32 := broadcastInDim S5000x256x7x7 ![] bcast_S_S5000x256x7x7 main_cst
  let main_v2 : IVec S5000x256x7x7 1 := cmpf .olt main_v0 main_v1
  let main_c : IVec S_ 1 := constantI S_ 1 1#1
  let main_v3 : IVec S_ 1 := (fun x v => Host.reduce IntOp.andi x v reducesTo_S5000x256x7x7_S_d0_1_2_3 h_S_) main_v2 main_c
  let main_v4 : FVec F S32x12544 .f32 := Host.absf main_arg1
  let main_cst_0 : FVec F S_ .f32 := constant S_ .f32 0x7F800000#32
  let main_v5 : FVec F S32x12544 .f32 := broadcastInDim S32x12544 ![] bcast_S_S32x12544 main_cst_0
  let main_v6 : IVec S32x12544 1 := cmpf .olt main_v4 main_v5
  let main_c_1 : IVec S_ 1 := constantI S_ 1 1#1
  let main_v7 : IVec S_ 1 := (fun x v => Host.reduce IntOp.andi x v reducesTo_S32x12544_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S124x12544 .f32 := Host.absf main_arg3
  let main_cst_4 : FVec F S_ .f32 := constant S_ .f32 0x7F800000#32
  let main_v15 : FVec F S124x12544 .f32 := broadcastInDim S124x12544 ![] bcast_S_S124x12544 main_cst_4
  let main_v16 : IVec S124x12544 1 := cmpf .olt main_v14 main_v15
  fn_part1 (F := F) main_arg4 main_arg5 main_arg6 main_arg7 main_arg8 main_arg9 main_arg10 main_v13 main_v16
-- ==== Kernel.lean ====
abbrev S5000x256x7x7 : Shape := ⟨4, ![5000, 256, 7, 7]⟩
abbrev S32x12544 : Shape := ⟨2, ![32, 12544]⟩
abbrev S32 : Shape := ⟨1, ![32]⟩
abbrev S124x12544 : Shape := ⟨2, ![124, 12544]⟩
abbrev S124 : Shape := ⟨1, ![124]⟩
abbrev S3x12544 : Shape := ⟨2, ![3, 12544]⟩
abbrev S3 : Shape := ⟨1, ![3]⟩
abbrev S7x12544 : Shape := ⟨2, ![7, 12544]⟩
abbrev S7 : Shape := ⟨1, ![7]⟩
abbrev S2x12544 : Shape := ⟨2, ![2, 12544]⟩
abbrev S2 : Shape := ⟨1, ![2]⟩
abbrev S7x7x5000x256 : Shape := ⟨4, ![7, 7, 5000, 256]⟩
abbrev S168x12544 : Shape := ⟨2, ![168, 12544]⟩
abbrev S168x256x7x7 : Shape := ⟨4, ![168, 256, 7, 7]⟩
abbrev S7x7x256x168 : Shape := ⟨4, ![7, 7, 256, 168]⟩
abbrev S168 : Shape := ⟨1, ![168]⟩
abbrev S1x168 : Shape := ⟨2, ![1, 168]⟩
abbrev S5000x168 : Shape := ⟨2, ![5000, 168]⟩
abbrev S7x7x200x256 : Shape := ⟨4, ![7, 7, 200, 256]⟩
abbrev S200x168 : Shape := ⟨2, ![200, 168]⟩
abbrev S1x1x200x256 : Shape := ⟨4, ![1, 1, 200, 256]⟩
abbrev S200x256 : Shape := ⟨2, ![200, 256]⟩
abbrev S1x1x256x168 : Shape := ⟨4, ![1, 1, 256, 168]⟩
abbrev S256x168 : Shape := ⟨2, ![256, 168]⟩
abbrev S5000x32 : Shape := ⟨2, ![5000, 32]⟩
abbrev S5000x124 : Shape := ⟨2, ![5000, 124]⟩
abbrev S5000x3 : Shape := ⟨2, ![5000, 3]⟩
abbrev S5000x7 : Shape := ⟨2, ![5000, 7]⟩
abbrev S5000x2 : Shape := ⟨2, ![5000, 2]⟩

abbrev nBuf : Space → Nat
  | .hbm => 24
  | .vmem => 6
  | .smem => 0
  | _ => 0

abbrev bufTy : (tb : Table) → Fin (tcTables nBuf tb) → BufTy
  | .hbm, ⟨0, _⟩ => ⟨S5000x256x7x7, .f32⟩
  | .hbm, ⟨1, _⟩ => ⟨S32x12544, .f32⟩
  | .hbm, ⟨2, _⟩ => ⟨S32, .f32⟩
  | .hbm, ⟨3, _⟩ => ⟨S124x12544, .f32⟩
  | .hbm, ⟨4, _⟩ => ⟨S124, .f32⟩
  | .hbm, ⟨5, _⟩ => ⟨S3x12544, .f32⟩
  | .hbm, ⟨6, _⟩ => ⟨S3, .f32⟩
  | .hbm, ⟨7, _⟩ => ⟨S7x12544, .f32⟩
  | .hbm, ⟨8, _⟩ => ⟨S7, .f32⟩
  | .hbm, ⟨9, _⟩ => ⟨S2x12544, .f32⟩
  | .hbm, ⟨10, _⟩ => ⟨S2, .f32⟩
  | .hbm, ⟨11, _⟩ => ⟨S7x7x5000x256, .f32⟩
  | .hbm, ⟨12, _⟩ => ⟨S168x12544, .f32⟩
  | .hbm, ⟨13, _⟩ => ⟨S168x256x7x7, .f32⟩
  | .hbm, ⟨14, _⟩ => ⟨S7x7x256x168, .f32⟩
  | .hbm, ⟨15, _⟩ => ⟨S7x7x256x168, .bf16⟩
  | .hbm, ⟨16, _⟩ => ⟨S168, .f32⟩
  | .hbm, ⟨17, _⟩ => ⟨S1x168, .f32⟩
  | .hbm, ⟨18, _⟩ => ⟨S5000x168, .f32⟩
  | .hbm, ⟨19, _⟩ => ⟨S5000x32, .f32⟩
  | .hbm, ⟨20, _⟩ => ⟨S5000x124, .f32⟩
  | .hbm, ⟨21, _⟩ => ⟨S5000x3, .f32⟩
  | .hbm, ⟨22, _⟩ => ⟨S5000x7, .f32⟩
  | .hbm, ⟨23, _⟩ => ⟨S5000x2, .f32⟩
  | .local _ .vmem, ⟨0, _⟩ => ⟨S7x7x200x256, .f32⟩
  | .local _ .vmem, ⟨1, _⟩ => ⟨S7x7x200x256, .f32⟩
  | .local _ .vmem, ⟨2, _⟩ => ⟨S7x7x256x168, .bf16⟩
  | .local _ .vmem, ⟨3, _⟩ => ⟨S1x168, .f32⟩
  | .local _ .vmem, ⟨4, _⟩ => ⟨S200x168, .f32⟩
  | .local _ .vmem, ⟨5, _⟩ => ⟨S200x168, .f32⟩
  | _, _ => ⟨S5000x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x7x200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x7x256x168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S5000x256x7x7_S7x7x5000x256_2_3_0_1 : S5000x256x7x7.Transposes [2, 3, 0, 1] S7x7x5000x256
  concatenates_S32x12544_S124x12544_S3x12544_S7x12544_S2x12544_S168x12544_d0 : Shape.Concatenates [S32x12544, S124x12544, S3x12544, S7x12544, S2x12544] S168x12544 0
  shapeCasts_S168x12544_S168x256x7x7 : S168x12544.ShapeCasts S168x256x7x7
  transposes_S168x256x7x7_S7x7x256x168_2_3_1_0 : S168x256x7x7.Transposes [2, 3, 1, 0] S7x7x256x168
  bitsLt_bf16_f32 : FTy.bits .bf16 < FTy.bits .f32
  concatenates_S32_S124_S3_S7_S2_S168_d0 : Shape.Concatenates [S32, S124, S3, S7, S2] S168 0
  bcast_S168_S1x168_1 : S168.BroadcastsInDim S1x168 (![1] : Fin 1 → Fin S1x168.rank)
  inb_S1x168_S1x168_0_0 : ∀ a, (![0, 0] : Fin 2 → Nat) a + S1x168.size a ≤ S1x168.size a
  h_S1x168 : 0 < S1x168.numel
  shapeCasts_S1x168_S1x168 : S1x168.ShapeCasts S1x168
  inb_S7x7x200x256_S1x1x200x256_0_0_0_0 : ∀ a, (![0, 0, 0, 0] : Fin 4 → Nat) a + S1x1x200x256.size a ≤ S7x7x200x256.size a
  h_S1x1x200x256 : 0 < S1x1x200x256.numel
  shapeCasts_S1x1x200x256_S200x256 : S1x1x200x256.ShapeCasts S200x256
  inb_S7x7x256x168_S1x1x256x168_0_0_0_0 : ∀ a, (![0, 0, 0, 0] : Fin 4 → Nat) a + S1x1x256x168.size a ≤ S7x7x256x168.size a
  h_S1x1x256x168 : 0 < S1x1x256x168.numel
  shapeCasts_S1x1x256x168_S256x168 : S1x1x256x168.ShapeCasts S256x168
  broadcasts_S1x168_S200x168 : S1x168.Broadcasts S200x168
  inb_S7x7x200x256_S1x1x200x256_0_1_0_0 : ∀ a, (![0, 1, 0, 0] : Fin 4 → Nat) a + S1x1x200x256.size a ≤ S7x7x200x256.size a
  inb_S7x7x256x168_S1x1x256x168_0_1_0_0 : ∀ a, (![0, 1, 0, 0] : Fin 4 → Nat) a + S1x1x256x168.size a ≤ S7x7x256x168.size a
  inb_S7x7x200x256_S1x1x200x256_0_2_0_0 : ∀ a, (![0, 2, 0, 0] : Fin 4 → Nat) a + S1x1x200x256.size a ≤ S7x7x200x256.size a
  inb_S7x7x256x168_S1x1x256x168_0_2_0_0 : ∀ a, (![0, 2, 0, 0] : Fin 4 → Nat) a + S1x1x256x168.size a ≤ S7x7x256x168.size a
  inb_S7x7x200x256_S1x1x200x256_0_3_0_0 : ∀ a, (![0, 3, 0, 0] : Fin 4 → Nat) a + S1x1x200x256.size a ≤ S7x7x200x256.size a
  inb_S7x7x256x168_S1x1x256x168_0_3_0_0 : ∀ a, (![0, 3, 0, 0] : Fin 4 → Nat) a + S1x1x256x168.size a ≤ S7x7x256x168.size a
  inb_S7x7x200x256_S1x1x200x256_0_4_0_0 : ∀ a, (![0, 4, 0, 0] : Fin 4 → Nat) a + S1x1x200x256.size a ≤ S7x7x200x256.size a
  inb_S7x7x256x168_S1x1x256x168_0_4_0_0 : ∀ a, (![0, 4, 0, 0] : Fin 4 → Nat) a + S1x1x256x168.size a ≤ S7x7x256x168.size a
  inb_S7x7x200x256_S1x1x200x256_0_5_0_0 : ∀ a, (![0, 5, 0, 0] : Fin 4 → Nat) a + S1x1x200x256.size a ≤ S7x7x200x256.size a
  inb_S7x7x256x168_S1x1x256x168_0_5_0_0 : ∀ a, (![0, 5, 0, 0] : Fin 4 → Nat) a + S1x1x256x168.size a ≤ S7x7x256x168.size a
  inb_S7x7x200x256_S1x1x200x256_0_6_0_0 : ∀ a, (![0, 6, 0, 0] : Fin 4 → Nat) a + S1x1x200x256.size a ≤ S7x7x200x256.size a
  inb_S7x7x256x168_S1x1x256x168_0_6_0_0 : ∀ a, (![0, 6, 0, 0] : Fin 4 → Nat) a + S1x1x256x168.size a ≤ S7x7x256x168.size a
  inb_S7x7x200x256_S1x1x200x256_1_0_0_0 : ∀ a, (![1, 0, 0, 0] : Fin 4 → Nat) a + S1x1x200x256.size a ≤ S7x7x200x256.size a
  inb_S7x7x256x168_S1x1x256x168_1_0_0_0 : ∀ a, (![1, 0, 0, 0] : Fin 4 → Nat) a + S1x1x256x168.size a ≤ S7x7x256x168.size a
  inb_S7x7x200x256_S1x1x200x256_1_1_0_0 : ∀ a, (![1, 1, 0, 0] : Fin 4 → Nat) a + S1x1x200x256.size a ≤ S7x7x200x256.size a
  inb_S7x7x256x168_S1x1x256x168_1_1_0_0 : ∀ a, (![1, 1, 0, 0] : Fin 4 → Nat) a + S1x1x256x168.size a ≤ S7x7x256x168.size a
  inb_S7x7x200x256_S1x1x200x256_1_2_0_0 : ∀ a, (![1, 2, 0, 0] : Fin 4 → Nat) a + S1x1x200x256.size a ≤ S7x7x200x256.size a
  inb_S7x7x256x168_S1x1x256x168_1_2_0_0 : ∀ a, (![1, 2, 0, 0] : Fin 4 → Nat) a + S1x1x256x168.size a ≤ S7x7x256x168.size a
  inb_S7x7x200x256_S1x1x200x256_1_3_0_0 : ∀ a, (![1, 3, 0, 0] : Fin 4 → Nat) a + S1x1x200x256.size a ≤ S7x7x200x256.size a
  inb_S7x7x256x168_S1x1x256x168_1_3_0_0 : ∀ a, (![1, 3, 0, 0] : Fin 4 → Nat) a + S1x1x256x168.size a ≤ S7x7x256x168.size a
  inb_S7x7x200x256_S1x1x200x256_1_4_0_0 : ∀ a, (![1, 4, 0, 0] : Fin 4 → Nat) a + S1x1x200x256.size a ≤ S7x7x200x256.size a
  inb_S7x7x256x168_S1x1x256x168_1_4_0_0 : ∀ a, (![1, 4, 0, 0] : Fin 4 → Nat) a + S1x1x256x168.size a ≤ S7x7x256x168.size a
  inb_S7x7x200x256_S1x1x200x256_1_5_0_0 : ∀ a, (![1, 5, 0, 0] : Fin 4 → Nat) a + S1x1x200x256.size a ≤ S7x7x200x256.size a
  inb_S7x7x256x168_S1x1x256x168_1_5_0_0 : ∀ a, (![1, 5, 0, 0] : Fin 4 → Nat) a + S1x1x256x168.size a ≤ S7x7x256x168.size a
  inb_S7x7x200x256_S1x1x200x256_1_6_0_0 : ∀ a, (![1, 6, 0, 0] : Fin 4 → Nat) a + S1x1x200x256.size a ≤ S7x7x200x256.size a
  inb_S7x7x256x168_S1x1x256x168_1_6_0_0 : ∀ a, (![1, 6, 0, 0] : Fin 4 → Nat) a + S1x1x256x168.size a ≤ S7x7x256x168.size a
  inb_S7x7x200x256_S1x1x200x256_2_0_0_0 : ∀ a, (![2, 0, 0, 0] : Fin 4 → Nat) a + S1x1x200x256.size a ≤ S7x7x200x256.size a
  inb_S7x7x256x168_S1x1x256x168_2_0_0_0 : ∀ a, (![2, 0, 0, 0] : Fin 4 → Nat) a + S1x1x256x168.size a ≤ S7x7x256x168.size a
  inb_S7x7x200x256_S1x1x200x256_2_1_0_0 : ∀ a, (![2, 1, 0, 0] : Fin 4 → Nat) a + S1x1x200x256.size a ≤ S7x7x200x256.size a
  inb_S7x7x256x168_S1x1x256x168_2_1_0_0 : ∀ a, (![2, 1, 0, 0] : Fin 4 → Nat) a + S1x1x256x168.size a ≤ S7x7x256x168.size a
  inb_S7x7x200x256_S1x1x200x256_2_2_0_0 : ∀ a, (![2, 2, 0, 0] : Fin 4 → Nat) a + S1x1x200x256.size a ≤ S7x7x200x256.size a
  inb_S7x7x256x168_S1x1x256x168_2_2_0_0 : ∀ a, (![2, 2, 0, 0] : Fin 4 → Nat) a + S1x1x256x168.size a ≤ S7x7x256x168.size a
  inb_S7x7x200x256_S1x1x200x256_2_3_0_0 : ∀ a, (![2, 3, 0, 0] : Fin 4 → Nat) a + S1x1x200x256.size a ≤ S7x7x200x256.size a
  inb_S7x7x256x168_S1x1x256x168_2_3_0_0 : ∀ a, (![2, 3, 0, 0] : Fin 4 → Nat) a + S1x1x256x168.size a ≤ S7x7x256x168.size a
  inb_S7x7x200x256_S1x1x200x256_2_4_0_0 : ∀ a, (![2, 4, 0, 0] : Fin 4 → Nat) a + S1x1x200x256.size a ≤ S7x7x200x256.size a
  inb_S7x7x256x168_S1x1x256x168_2_4_0_0 : ∀ a, (![2, 4, 0, 0] : Fin 4 → Nat) a + S1x1x256x168.size a ≤ S7x7x256x168.size a
  inb_S7x7x200x256_S1x1x200x256_2_5_0_0 : ∀ a, (![2, 5, 0, 0] : Fin 4 → Nat) a + S1x1x200x256.size a ≤ S7x7x200x256.size a
  inb_S7x7x256x168_S1x1x256x168_2_5_0_0 : ∀ a, (![2, 5, 0, 0] : Fin 4 → Nat) a + S1x1x256x168.size a ≤ S7x7x256x168.size a
  inb_S7x7x200x256_S1x1x200x256_2_6_0_0 : ∀ a, (![2, 6, 0, 0] : Fin 4 → Nat) a + S1x1x200x256.size a ≤ S7x7x200x256.size a
  inb_S7x7x256x168_S1x1x256x168_2_6_0_0 : ∀ a, (![2, 6, 0, 0] : Fin 4 → Nat) a + S1x1x256x168.size a ≤ S7x7x256x168.size a
  inb_S7x7x200x256_S1x1x200x256_3_0_0_0 : ∀ a, (![3, 0, 0, 0] : Fin 4 → Nat) a + S1x1x200x256.size a ≤ S7x7x200x256.size a
  inb_S7x7x256x168_S1x1x256x168_3_0_0_0 : ∀ a, (![3, 0, 0, 0] : Fin 4 → Nat) a + S1x1x256x168.size a ≤ S7x7x256x168.size a
  inb_S7x7x200x256_S1x1x200x256_3_1_0_0 : ∀ a, (![3, 1, 0, 0] : Fin 4 → Nat) a + S1x1x200x256.size a ≤ S7x7x200x256.size a
  inb_S7x7x256x168_S1x1x256x168_3_1_0_0 : ∀ a, (![3, 1, 0, 0] : Fin 4 → Nat) a + S1x1x256x168.size a ≤ S7x7x256x168.size a
  inb_S7x7x200x256_S1x1x200x256_3_2_0_0 : ∀ a, (![3, 2, 0, 0] : Fin 4 → Nat) a + S1x1x200x256.size a ≤ S7x7x200x256.size a
  inb_S7x7x256x168_S1x1x256x168_3_2_0_0 : ∀ a, (![3, 2, 0, 0] : Fin 4 → Nat) a + S1x1x256x168.size a ≤ S7x7x256x168.size a
  inb_S7x7x200x256_S1x1x200x256_3_3_0_0 : ∀ a, (![3, 3, 0, 0] : Fin 4 → Nat) a + S1x1x200x256.size a ≤ S7x7x200x256.size a
  inb_S7x7x256x168_S1x1x256x168_3_3_0_0 : ∀ a, (![3, 3, 0, 0] : Fin 4 → Nat) a + S1x1x256x168.size a ≤ S7x7x256x168.size a
  inb_S7x7x200x256_S1x1x200x256_3_4_0_0 : ∀ a, (![3, 4, 0, 0] : Fin 4 → Nat) a + S1x1x200x256.size a ≤ S7x7x200x256.size a
  inb_S7x7x256x168_S1x1x256x168_3_4_0_0 : ∀ a, (![3, 4, 0, 0] : Fin 4 → Nat) a + S1x1x256x168.size a ≤ S7x7x256x168.size a
  inb_S7x7x200x256_S1x1x200x256_3_5_0_0 : ∀ a, (![3, 5, 0, 0] : Fin 4 → Nat) a + S1x1x200x256.size a ≤ S7x7x200x256.size a
  inb_S7x7x256x168_S1x1x256x168_3_5_0_0 : ∀ a, (![3, 5, 0, 0] : Fin 4 → Nat) a + S1x1x256x168.size a ≤ S7x7x256x168.size a
  inb_S7x7x200x256_S1x1x200x256_3_6_0_0 : ∀ a, (![3, 6, 0, 0] : Fin 4 → Nat) a + S1x1x200x256.size a ≤ S7x7x200x256.size a
  inb_S7x7x256x168_S1x1x256x168_3_6_0_0 : ∀ a, (![3, 6, 0, 0] : Fin 4 → Nat) a + S1x1x256x168.size a ≤ S7x7x256x168.size a
  inb_S7x7x200x256_S1x1x200x256_4_0_0_0 : ∀ a, (![4, 0, 0, 0] : Fin 4 → Nat) a + S1x1x200x256.size a ≤ S7x7x200x256.size a
  inb_S7x7x256x168_S1x1x256x168_4_0_0_0 : ∀ a, (![4, 0, 0, 0] : Fin 4 → Nat) a + S1x1x256x168.size a ≤ S7x7x256x168.size a
  inb_S7x7x200x256_S1x1x200x256_4_1_0_0 : ∀ a, (![4, 1, 0, 0] : Fin 4 → Nat) a + S1x1x200x256.size a ≤ S7x7x200x256.size a
  inb_S7x7x256x168_S1x1x256x168_4_1_0_0 : ∀ a, (![4, 1, 0, 0] : Fin 4 → Nat) a + S1x1x256x168.size a ≤ S7x7x256x168.size a
  inb_S7x7x200x256_S1x1x200x256_4_2_0_0 : ∀ a, (![4, 2, 0, 0] : Fin 4 → Nat) a + S1x1x200x256.size a ≤ S7x7x200x256.size a
  inb_S7x7x256x168_S1x1x256x168_4_2_0_0 : ∀ a, (![4, 2, 0, 0] : Fin 4 → Nat) a + S1x1x256x168.size a ≤ S7x7x256x168.size a
  inb_S7x7x200x256_S1x1x200x256_4_3_0_0 : ∀ a, (![4, 3, 0, 0] : Fin 4 → Nat) a + S1x1x200x256.size a ≤ S7x7x200x256.size a
  inb_S7x7x256x168_S1x1x256x168_4_3_0_0 : ∀ a, (![4, 3, 0, 0] : Fin 4 → Nat) a + S1x1x256x168.size a ≤ S7x7x256x168.size a
  inb_S7x7x200x256_S1x1x200x256_4_4_0_0 : ∀ a, (![4, 4, 0, 0] : Fin 4 → Nat) a + S1x1x200x256.size a ≤ S7x7x200x256.size a
  inb_S7x7x256x168_S1x1x256x168_4_4_0_0 : ∀ a, (![4, 4, 0, 0] : Fin 4 → Nat) a + S1x1x256x168.size a ≤ S7x7x256x168.size a
  inb_S7x7x200x256_S1x1x200x256_4_5_0_0 : ∀ a, (![4, 5, 0, 0] : Fin 4 → Nat) a + S1x1x200x256.size a ≤ S7x7x200x256.size a
  inb_S7x7x256x168_S1x1x256x168_4_5_0_0 : ∀ a, (![4, 5, 0, 0] : Fin 4 → Nat) a + S1x1x256x168.size a ≤ S7x7x256x168.size a
  inb_S7x7x200x256_S1x1x200x256_4_6_0_0 : ∀ a, (![4, 6, 0, 0] : Fin 4 → Nat) a + S1x1x200x256.size a ≤ S7x7x200x256.size a
  inb_S7x7x256x168_S1x1x256x168_4_6_0_0 : ∀ a, (![4, 6, 0, 0] : Fin 4 → Nat) a + S1x1x256x168.size a ≤ S7x7x256x168.size a
  inb_S7x7x200x256_S1x1x200x256_5_0_0_0 : ∀ a, (![5, 0, 0, 0] : Fin 4 → Nat) a + S1x1x200x256.size a ≤ S7x7x200x256.size a
  inb_S7x7x256x168_S1x1x256x168_5_0_0_0 : ∀ a, (![5, 0, 0, 0] : Fin 4 → Nat) a + S1x1x256x168.size a ≤ S7x7x256x168.size a
  inb_S7x7x200x256_S1x1x200x256_5_1_0_0 : ∀ a, (![5, 1, 0, 0] : Fin 4 → Nat) a + S1x1x200x256.size a ≤ S7x7x200x256.size a
  inb_S7x7x256x168_S1x1x256x168_5_1_0_0 : ∀ a, (![5, 1, 0, 0] : Fin 4 → Nat) a + S1x1x256x168.size a ≤ S7x7x256x168.size a
  inb_S7x7x200x256_S1x1x200x256_5_2_0_0 : ∀ a, (![5, 2, 0, 0] : Fin 4 → Nat) a + S1x1x200x256.size a ≤ S7x7x200x256.size a
  inb_S7x7x256x168_S1x1x256x168_5_2_0_0 : ∀ a, (![5, 2, 0, 0] : Fin 4 → Nat) a + S1x1x256x168.size a ≤ S7x7x256x168.size a
  inb_S7x7x200x256_S1x1x200x256_5_3_0_0 : ∀ a, (![5, 3, 0, 0] : Fin 4 → Nat) a + S1x1x200x256.size a ≤ S7x7x200x256.size a
  inb_S7x7x256x168_S1x1x256x168_5_3_0_0 : ∀ a, (![5, 3, 0, 0] : Fin 4 → Nat) a + S1x1x256x168.size a ≤ S7x7x256x168.size a
  inb_S7x7x200x256_S1x1x200x256_5_4_0_0 : ∀ a, (![5, 4, 0, 0] : Fin 4 → Nat) a + S1x1x200x256.size a ≤ S7x7x200x256.size a
  inb_S7x7x256x168_S1x1x256x168_5_4_0_0 : ∀ a, (![5, 4, 0, 0] : Fin 4 → Nat) a + S1x1x256x168.size a ≤ S7x7x256x168.size a
  inb_S7x7x200x256_S1x1x200x256_5_5_0_0 : ∀ a, (![5, 5, 0, 0] : Fin 4 → Nat) a + S1x1x200x256.size a ≤ S7x7x200x256.size a
  inb_S7x7x256x168_S1x1x256x168_5_5_0_0 : ∀ a, (![5, 5, 0, 0] : Fin 4 → Nat) a + S1x1x256x168.size a ≤ S7x7x256x168.size a
  inb_S7x7x200x256_S1x1x200x256_5_6_0_0 : ∀ a, (![5, 6, 0, 0] : Fin 4 → Nat) a + S1x1x200x256.size a ≤ S7x7x200x256.size a
  inb_S7x7x256x168_S1x1x256x168_5_6_0_0 : ∀ a, (![5, 6, 0, 0] : Fin 4 → Nat) a + S1x1x256x168.size a ≤ S7x7x256x168.size a
  inb_S7x7x200x256_S1x1x200x256_6_0_0_0 : ∀ a, (![6, 0, 0, 0] : Fin 4 → Nat) a + S1x1x200x256.size a ≤ S7x7x200x256.size a
  inb_S7x7x256x168_S1x1x256x168_6_0_0_0 : ∀ a, (![6, 0, 0, 0] : Fin 4 → Nat) a + S1x1x256x168.size a ≤ S7x7x256x168.size a
  inb_S7x7x200x256_S1x1x200x256_6_1_0_0 : ∀ a, (![6, 1, 0, 0] : Fin 4 → Nat) a + S1x1x200x256.size a ≤ S7x7x200x256.size a
  inb_S7x7x256x168_S1x1x256x168_6_1_0_0 : ∀ a, (![6, 1, 0, 0] : Fin 4 → Nat) a + S1x1x256x168.size a ≤ S7x7x256x168.size a
  inb_S7x7x200x256_S1x1x200x256_6_2_0_0 : ∀ a, (![6, 2, 0, 0] : Fin 4 → Nat) a + S1x1x200x256.size a ≤ S7x7x200x256.size a
  inb_S7x7x256x168_S1x1x256x168_6_2_0_0 : ∀ a, (![6, 2, 0, 0] : Fin 4 → Nat) a + S1x1x256x168.size a ≤ S7x7x256x168.size a
  inb_S7x7x200x256_S1x1x200x256_6_3_0_0 : ∀ a, (![6, 3, 0, 0] : Fin 4 → Nat) a + S1x1x200x256.size a ≤ S7x7x200x256.size a
  inb_S7x7x256x168_S1x1x256x168_6_3_0_0 : ∀ a, (![6, 3, 0, 0] : Fin 4 → Nat) a + S1x1x256x168.size a ≤ S7x7x256x168.size a
  inb_S7x7x200x256_S1x1x200x256_6_4_0_0 : ∀ a, (![6, 4, 0, 0] : Fin 4 → Nat) a + S1x1x200x256.size a ≤ S7x7x200x256.size a
  inb_S7x7x256x168_S1x1x256x168_6_4_0_0 : ∀ a, (![6, 4, 0, 0] : Fin 4 → Nat) a + S1x1x256x168.size a ≤ S7x7x256x168.size a
  inb_S7x7x200x256_S1x1x200x256_6_5_0_0 : ∀ a, (![6, 5, 0, 0] : Fin 4 → Nat) a + S1x1x200x256.size a ≤ S7x7x200x256.size a
  inb_S7x7x256x168_S1x1x256x168_6_5_0_0 : ∀ a, (![6, 5, 0, 0] : Fin 4 → Nat) a + S1x1x256x168.size a ≤ S7x7x256x168.size a
  inb_S7x7x200x256_S1x1x200x256_6_6_0_0 : ∀ a, (![6, 6, 0, 0] : Fin 4 → Nat) a + S1x1x200x256.size a ≤ S7x7x200x256.size a
  inb_S7x7x256x168_S1x1x256x168_6_6_0_0 : ∀ a, (![6, 6, 0, 0] : Fin 4 → Nat) a + S1x1x256x168.size a ≤ S7x7x256x168.size a
  inb_S200x168_S200x168_0_0 : ∀ a, (![0, 0] : Fin 2 → Nat) a + S200x168.size a ≤ S200x168.size a
  h_S200x168 : 0 < S200x168.numel
  slices_S5000x168_S5000x32_0_0 : S5000x168.Slices ![0, 0] S5000x32
  slices_S5000x168_S5000x124_0_32 : S5000x168.Slices ![0, 32] S5000x124
  slices_S5000x168_S5000x3_0_156 : S5000x168.Slices ![0, 156] S5000x3
  slices_S5000x168_S5000x7_0_159 : S5000x168.Slices ![0, 159] S5000x7
  slices_S5000x168_S5000x2_0_166 : S5000x168.Slices ![0, 166] S5000x2
  dot_S200x256_S256x168_S200x168_1_0_0_1_n_n_wf : DotDims.WF S200x256 S256x168 S200x168 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x7x200x256.size a ≤ S7x7x5000x256.size a
  hwx0_0 : ∀ i : grid0.Coords, EltTy.bits .f32 = 32 ∨ (Rect.block (s := S7x7x5000x256) S7x7x200x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x7x256x168.size a ≤ S7x7x256x168.size a
  hwx0_1 : ∀ i : grid0.Coords, EltTy.bits .bf16 = 32 ∨ (Rect.block (s := S7x7x256x168) S7x7x256x168.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x168.size a ≤ S1x168.size a
  hwx0_2 : ∀ i : grid0.Coords, EltTy.bits .f32 = 32 ∨ (Rect.block (s := S1x168) S1x168.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x168.size a ≤ S5000x168.size a
  hwx0_3 : ∀ i : grid0.Coords, EltTy.bits .f32 = 32 ∨ (Rect.block (s := S5000x168) S200x168.size (cc0_transform_3 i) (hinb0_3 i)).WholeWords (EltTy.packing .f32)

variable [Facts₀]

def dot_S200x256_S256x168_S200x168_1_0_0_1_n_n : DotDims S200x256 S256x168 S200x168 where
  lhsContracting := [1]
  rhsContracting := [0]
  lhsNonContracting := [0]
  rhsNonContracting := [1]
  lhsBatch := []
  rhsBatch := []
  wf := dot_S200x256_S256x168_S200x168_1_0_0_1_n_n_wf

abbrev win0_0 : Pipeline.Window sig grid0 :=
  Pipeline.Window.ofSpec (Memref.whole main_v0) S7x7x200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S7x7x256x168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x168.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S200x168.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S5000x256x7x7 : Shape := ⟨4, ![5000, 256, 7, 7]⟩
abbrev S32x12544 : Shape := ⟨2, ![32, 12544]⟩
abbrev S32 : Shape := ⟨1, ![32]⟩
abbrev S124x12544 : Shape := ⟨2, ![124, 12544]⟩
abbrev S124 : Shape := ⟨1, ![124]⟩
abbrev S3x12544 : Shape := ⟨2, ![3, 12544]⟩
abbrev S3 : Shape := ⟨1, ![3]⟩
abbrev S7x12544 : Shape := ⟨2, ![7, 12544]⟩
abbrev S7 : Shape := ⟨1, ![7]⟩
abbrev S2x12544 : Shape := ⟨2, ![2, 12544]⟩
abbrev S2 : Shape := ⟨1, ![2]⟩
abbrev S5000x12544 : Shape := ⟨2, ![5000, 12544]⟩
abbrev S12544x32 : Shape := ⟨2, ![12544, 32]⟩
abbrev S5000x32 : Shape := ⟨2, ![5000, 32]⟩
abbrev S1x32 : Shape := ⟨2, ![1, 32]⟩
abbrev S12544x124 : Shape := ⟨2, ![12544, 124]⟩
abbrev S5000x124 : Shape := ⟨2, ![5000, 124]⟩
abbrev S1x124 : Shape := ⟨2, ![1, 124]⟩
abbrev S12544x3 : Shape := ⟨2, ![12544, 3]⟩
abbrev S5000x3 : Shape := ⟨2, ![5000, 3]⟩
abbrev S1x3 : Shape := ⟨2, ![1, 3]⟩
abbrev S12544x7 : Shape := ⟨2, ![12544, 7]⟩
abbrev S5000x7 : Shape := ⟨2, ![5000, 7]⟩
abbrev S1x7 : Shape := ⟨2, ![1, 7]⟩
abbrev S12544x2 : Shape := ⟨2, ![12544, 2]⟩
abbrev S5000x2 : Shape := ⟨2, ![5000, 2]⟩
abbrev S1x2 : Shape := ⟨2, ![1, 2]⟩

abbrev nBuf : Space → Nat
  | .hbm => 37
  | .vmem => 0
  | .smem => 0
  | _ => 0

abbrev bufTy : (tb : Table) → Fin (tcTables nBuf tb) → BufTy
  | .hbm, ⟨0, _⟩ => ⟨S5000x256x7x7, .f32⟩
  | .hbm, ⟨1, _⟩ => ⟨S32x12544, .f32⟩
  | .hbm, ⟨2, _⟩ => ⟨S32, .f32⟩
  | .hbm, ⟨3, _⟩ => ⟨S124x12544, .f32⟩
  | .hbm, ⟨4, _⟩ => ⟨S124, .f32⟩
  | .hbm, ⟨5, _⟩ => ⟨S3x12544, .f32⟩
  | .hbm, ⟨6, _⟩ => ⟨S3, .f32⟩
  | .hbm, ⟨7, _⟩ => ⟨S7x12544, .f32⟩
  | .hbm, ⟨8, _⟩ => ⟨S7, .f32⟩
  | .hbm, ⟨9, _⟩ => ⟨S2x12544, .f32⟩
  | .hbm, ⟨10, _⟩ => ⟨S2, .f32⟩
  | .hbm, ⟨11, _⟩ => ⟨S5000x12544, .f32⟩
  | .hbm, ⟨12, _⟩ => ⟨S12544x32, .f32⟩
  | .hbm, ⟨13, _⟩ => ⟨S5000x32, .f32⟩
  | .hbm, ⟨14, _⟩ => ⟨S1x32, .f32⟩
  | .hbm, ⟨15, _⟩ => ⟨S5000x32, .f32⟩
  | .hbm, ⟨16, _⟩ => ⟨S5000x32, .f32⟩
  | .hbm, ⟨17, _⟩ => ⟨S12544x124, .f32⟩
  | .hbm, ⟨18, _⟩ => ⟨S5000x124, .f32⟩
  | .hbm, ⟨19, _⟩ => ⟨S1x124, .f32⟩
  | .hbm, ⟨20, _⟩ => ⟨S5000x124, .f32⟩
  | .hbm, ⟨21, _⟩ => ⟨S5000x124, .f32⟩
  | .hbm, ⟨22, _⟩ => ⟨S12544x3, .f32⟩
  | .hbm, ⟨23, _⟩ => ⟨S5000x3, .f32⟩
  | .hbm, ⟨24, _⟩ => ⟨S1x3, .f32⟩
  | .hbm, ⟨25, _⟩ => ⟨S5000x3, .f32⟩
  | .hbm, ⟨26, _⟩ => ⟨S5000x3, .f32⟩
  | .hbm, ⟨27, _⟩ => ⟨S12544x7, .f32⟩
  | .hbm, ⟨28, _⟩ => ⟨S5000x7, .f32⟩
  | .hbm, ⟨29, _⟩ => ⟨S1x7, .f32⟩
  | .hbm, ⟨30, _⟩ => ⟨S5000x7, .f32⟩
  | .hbm, ⟨31, _⟩ => ⟨S5000x7, .f32⟩
  | .hbm, ⟨32, _⟩ => ⟨S12544x2, .f32⟩
  | .hbm, ⟨33, _⟩ => ⟨S5000x2, .f32⟩
  | .hbm, ⟨34, _⟩ => ⟨S1x2, .f32⟩
  | .hbm, ⟨35, _⟩ => ⟨S5000x2, .f32⟩
  | .hbm, ⟨36, _⟩ => ⟨S5000x2, .f32⟩
  | _, _ => ⟨S5000x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  shapeCasts_S5000x256x7x7_S5000x12544 : S5000x256x7x7.ShapeCasts S5000x12544
  transposes_S32x12544_S12544x32_1_0 : S32x12544.Transposes [1, 0] S12544x32
  bcast_S32_S1x32_1 : S32.BroadcastsInDim S1x32 (![1] : Fin 1 → Fin S1x32.rank)
  bcast_S1x32_S5000x32_0_1 : S1x32.BroadcastsInDim S5000x32 (![0, 1] : Fin 2 → Fin S5000x32.rank)
  transposes_S124x12544_S12544x124_1_0 : S124x12544.Transposes [1, 0] S12544x124
  bcast_S124_S1x124_1 : S124.BroadcastsInDim S1x124 (![1] : Fin 1 → Fin S1x124.rank)
  bcast_S1x124_S5000x124_0_1 : S1x124.BroadcastsInDim S5000x124 (![0, 1] : Fin 2 → Fin S5000x124.rank)
  transposes_S3x12544_S12544x3_1_0 : S3x12544.Transposes [1, 0] S12544x3
  bcast_S3_S1x3_1 : S3.BroadcastsInDim S1x3 (![1] : Fin 1 → Fin S1x3.rank)
  bcast_S1x3_S5000x3_0_1 : S1x3.BroadcastsInDim S5000x3 (![0, 1] : Fin 2 → Fin S5000x3.rank)
  transposes_S7x12544_S12544x7_1_0 : S7x12544.Transposes [1, 0] S12544x7
  bcast_S7_S1x7_1 : S7.BroadcastsInDim S1x7 (![1] : Fin 1 → Fin S1x7.rank)
  bcast_S1x7_S5000x7_0_1 : S1x7.BroadcastsInDim S5000x7 (![0, 1] : Fin 2 → Fin S5000x7.rank)
  transposes_S2x12544_S12544x2_1_0 : S2x12544.Transposes [1, 0] S12544x2
  bcast_S2_S1x2_1 : S2.BroadcastsInDim S1x2 (![1] : Fin 1 → Fin S1x2.rank)
  bcast_S1x2_S5000x2_0_1 : S1x2.BroadcastsInDim S5000x2 (![0, 1] : Fin 2 → Fin S5000x2.rank)
  dot_S5000x12544_S12544x32_S5000x32_1_0_0_1_n_n_wf : DotDims.WF S5000x12544 S12544x32 S5000x32 [1] [0] [0] [1] [] []
  dot_S5000x12544_S12544x124_S5000x124_1_0_0_1_n_n_wf : DotDims.WF S5000x12544 S12544x124 S5000x124 [1] [0] [0] [1] [] []
  dot_S5000x12544_S12544x3_S5000x3_1_0_0_1_n_n_wf : DotDims.WF S5000x12544 S12544x3 S5000x3 [1] [0] [0] [1] [] []
  dot_S5000x12544_S12544x7_S5000x7_1_0_0_1_n_n_wf : DotDims.WF S5000x12544 S12544x7 S5000x7 [1] [0] [0] [1] [] []
  dot_S5000x12544_S12544x2_S5000x2_1_0_0_1_n_n_wf : DotDims.WF S5000x12544 S12544x2 S5000x2 [1] [0] [0] [1] [] []

variable [Facts₀]

def dot_S5000x12544_S12544x32_S5000x32_1_0_0_1_n_n : DotDims S5000x12544 S12544x32 S5000x32 where
  lhsContracting := [1]
  rhsContracting := [0]
  lhsNonContracting := [0]
  rhsNonContracting := [1]
  lhsBatch := []
  rhsBatch := []
  wf := dot_S5000x12544_S12544x32_S5000x32_1_0_0_1_n_n_wf
def dot_S5000x12544_S12544x124_S5000x124_1_0_0_1_n_n : DotDims S5000x12544 S12544x124 S5000x124 where
  lhsContracting := [1]
  rhsContracting := [0]
  lhsNonContracting := [0]
  rhsNonContracting := [1]
  lhsBatch := []
  rhsBatch := []
  wf := dot_S5000x12544_S12544x124_S5000x124_1_0_0_1_n_n_wf
def dot_S5000x12544_S12544x3_S5000x3_1_0_0_1_n_n : DotDims S5000x12544 S12544x3 S5000x3 where
  lhsContracting := [1]
  rhsContracting := [0]
  lhsNonContracting := [0]
  rhsNonContracting := [1]
  lhsBatch := []
  rhsBatch := []
  wf := dot_S5000x12544_S12544x3_S5000x3_1_0_0_1_n_n_wf
def dot_S5000x12544_S12544x7_S5000x7_1_0_0_1_n_n : DotDims S5000x12544 S12544x7 S5000x7 where
  lhsContracting := [1]
  rhsContracting := [0]
  lhsNonContracting := [0]
  rhsNonContracting := [1]
  lhsBatch := []
  rhsBatch := []
  wf := dot_S5000x12544_S12544x7_S5000x7_1_0_0_1_n_n_wf
def dot_S5000x12544_S12544x2_S5000x2_1_0_0_1_n_n : DotDims S5000x12544 S12544x2 S5000x2 where
  lhsContracting := [1]
  rhsContracting := [0]
  lhsNonContracting := [0]
  rhsNonContracting := [1]
  lhsBatch := []
  rhsBatch := []
  wf := dot_S5000x12544_S12544x2_S5000x2_1_0_0_1_n_n_wf

class Facts : Prop extends Facts₀ where

variable [Facts]
-- ==== Proof.KHostLines.lean ====
/-
  The host lines around the one launch of `Kernel`'s @main: seven lines before it (a transpose of the activations;
  the five weight matrices stacked row-wise, reshaped, transposed and narrowed; the five bias vectors stacked and given a
  unit leading axis) and five after it (the five column slices of the launch's result).
  Here: what each TensorCore buffer holds when the launch is entered (`V0`, `V`), that @main is those lines, the
  launch, those lines (`hmain`), that the later lines stay inside the launch's arrays and the buffers that bypass it,
  allocate nothing and write no array of the launch, that no line writes an argument array (`V_main_argK`,
  `W_main_argK`), each window's block at a grid point (`iblk`), that an input window's staging buffer holds its block
  at every point, and the frame claim's post from a run to the launch's post (`frame_of`). All at any float instance.
-/
import proofs.«130648_g14216341750014_cont_week2b_1508_3_alg».proof.Proof.Gen.Kernel.Launch
import proofs.«130648_g14216341750014_cont_week2b_1508_3_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## @main around the launch -/

/-- Core `c`'s TensorCore buffers when the launch is entered, as a valuation: the launch memory after the seven
    lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines before the launch allocate nothing. -/
theorem hostOps0_fresh : (hostOps0 : List (HloOp τ sig (Elt F))).Forall fun op => op.fresh = ∅ := by
  simp only [List.Forall]; repeat' constructor
/-- Nor do the lines after it. -/
theorem hostOps1_fresh : (hostOps1 : List (HloOp τ sig (Elt F))).Forall fun op => op.fresh = ∅ := by
  simp only [List.Forall]; repeat' constructor

/-- @main is the lines before the launch, the launch, the lines after it: it reduces to the launch continued by the later
    lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the launch's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own slice buffer, which is no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no line -/

/-- No line before the launch writes `main_arg0`: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg1`: the launch finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg2`: the launch finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg3`: the launch finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg4`: the launch finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg5`: the launch finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg6`: the launch finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg7`: the launch finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg8`: the launch finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg9`: the launch finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg10`: the launch finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the launch writes `main_arg0` either: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No line after the launch writes `main_arg1` either: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No line after the launch writes `main_arg2` either: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No line after the launch writes `main_arg3` either: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No line after the launch writes `main_arg4` either: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No line after the launch writes `main_arg5` either: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No line after the launch writes `main_arg6` either: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No line after the launch writes `main_arg7` either: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No line after the launch writes `main_arg8` either: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No line after the launch writes `main_arg9` either: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No line after the launch writes `main_arg10` either: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the launch finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch's -/

/-- For any proof data, a run to the launch's post read after the later lines gives the frame claim's post: every argument
    array is a buffer that bypasses the launch, and no line writes it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

end Cert.Kernel.Around

end
-- ==== Proof.KBodyRun.lean ====
/-
  The body of `Kernel`'s kernel run once, on whole staging buffers: the three inputs' at read contents, the output's
  at anything. The body loads the bias row, then for each of the 49 spatial positions loads that position's slab of the
  activations block and of the weights, multiplies them and adds the product to the running sum; it reads the output
  buffer once (the value is unused) and stores the sum over the whole output buffer. The run's witness is the list of
  pieces the output buffer ends with (one store, covering it).
-/
import proofs.«130648_g14216341750014_cont_week2b_1508_3_alg».proof.Proof.KHostLines
import proofs.«130648_g14216341750014_cont_week2b_1508_3_alg».proof.Proof.Gen.Kernel.Skeleton

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's one store leaves in the output's staging buffer, with the proof that on whole staging buffers —
    the inputs' at contents `x0`, `x1`, `x2`, the output's at anything — the body runs to the continuation holding the
    inputs' as they were and the output's with those pieces written. -/
noncomputable def kernelRun (c : Dev nD) (i : grid0.Coords) (arg1 : Memref sig .tc .vmem S7x7x200x256 .f32) (harg1 : arg1.IsWhole) (arg2 : Memref sig .tc .vmem S7x7x256x168 .bf16) (harg2 : arg2.IsWhole) (arg3 : Memref sig .tc .vmem S1x168 .f32) (harg3 : arg3.IsWhole) (arg4 : Memref sig .tc .vmem S200x168 .f32) (harg4 : arg4.IsWhole)
    (x0 : Vec F S7x7x200x256 .f32) (x1 : Vec F S7x7x256x168 .bf16) (x2 : Vec F S1x168 .f32) :
    { L : List (View.Piece (Elt F) S200x168 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc0__fused_heads_kernel i arg1 harg1 arg2 harg2 arg3 harg3 arg4 harg4) K } := by
  refine ⟨?_, fun E K => ?run⟩
  case run =>
    simp only [cc0__fused_heads_kernel_eq_skeleton]; unfold cc0__fused_heads_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Around

end
-- ==== Proof.KFrame.lean ====
/-
  The launch of `Kernel` certified: what the output's staging buffer holds after the body at a grid point (the body's one
  store read back, over that point's blocks of the three inputs), the launch's proof data (the arrays as the launch finds
  them; after the body each input's buffer still at its block and the output's at the store read back; nothing kept between
  points), the body obligation at every point from the one run of the body, the run of @main to the launch's post read
  after the later lines, and the frame claim's post: every argument array ends as launched. At any float instance.
-/
import proofs.«130648_g14216341750014_cont_week2b_1508_3_alg».proof.Proof.KBodyRun
import Idealize.ShloMosaic.Lib.Ring

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev ms0_0 (t : Fin cfg0.N) : Memref sig .tc .vmem S7x7x200x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7x7x256x168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x168 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x168 .f32 := win0_3.stage (cfg0.slots t 3)
abbrev hs0_3 (t : Fin cfg0.N) : (ms0_3 t).IsWhole := hstage0_3 ((cfg0.slots t 3).cast nbuf0_3)

/-- A view of the output block's shape, through which the body's pieces are read back. -/
abbrev VO : View sig .tc .vmem S200x168 .f32 := (Memref.whole cc0_stg3_0 : Memref sig .tc .vmem S200x168 .f32).view

/-! ## What the body leaves in the output's buffer -/

/-- The body's one store tiles the output block, so its pieces cover it. -/
theorem cover0_3 (c : Dev nD) (i : grid0.Coords) (arg1 : Memref sig .tc .vmem S7x7x200x256 .f32) (harg1 : arg1.IsWhole) (arg2 : Memref sig .tc .vmem S7x7x256x168 .bf16) (harg2 : arg2.IsWhole) (arg3 : Memref sig .tc .vmem S1x168 .f32) (harg3 : arg3.IsWhole) (arg4 : Memref sig .tc .vmem S200x168 .f32) (harg4 : arg4.IsWhole)
    (x0 : Vec F S7x7x200x256 .f32) (x1 : Vec F S7x7x256x168 .bf16) (x2 : Vec F S1x168 .f32) (y : S200x168.Idx) :
    ∃ pc ∈ (kernelRun c i arg1 harg1 arg2 harg2 arg3 harg3 arg4 harg4 x0 x1 x2).1, y ∈ pc.1.set :=
  View.cover_of_tiledL (kernelRun c i arg1 harg1 arg2 harg2 arg3 harg3 arg4 harg4 x0 x1 x2).1 S200x168.size (by sl_kernel_rfl) y

/-- What the body leaves in the output's staging buffer: its pieces read back over junk. -/
def out0_3 (c : Dev nD) (i : grid0.Coords) (arg1 : Memref sig .tc .vmem S7x7x200x256 .f32) (harg1 : arg1.IsWhole) (arg2 : Memref sig .tc .vmem S7x7x256x168 .bf16) (harg2 : arg2.IsWhole) (arg3 : Memref sig .tc .vmem S1x168 .f32) (harg3 : arg3.IsWhole) (arg4 : Memref sig .tc .vmem S200x168 .f32) (harg4 : arg4.IsWhole)
    (x0 : Vec F S7x7x200x256 .f32) (x1 : Vec F S7x7x256x168 .bf16) (x2 : Vec F S1x168 .f32) : Vec F S200x168 .f32 :=
  VO.read (Elt F) (VO.writes (Elt F) VO.junk (kernelRun c i arg1 harg1 arg2 harg2 arg3 harg3 arg4 harg4 x0 x1 x2).1)

/-! ## The launch's proof data -/

/-- The proof data of the launch on core `c`: the arrays as the launch finds them; after the body at point `t` each
    input's buffer at its block and the output's at the body's store read back over the point's input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 c (grid0.coords t) (ms0_0 t) (hs0_0 t) (ms0_1 t) (hs0_1 t) (ms0_2 t) (hs0_2 t) (ms0_3 t) (hs0_3 t) (iblk m c 0 t) (iblk m c 1 t) (iblk m c 2 t)
  Φ _ := Pipeline.ΦA spec0 c
  q _ := fullShare
  owed _ := 0

/-- The proof data's arrays are the entry contents (the definition projected, `V` never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = out0_3 c (grid0.coords t) (ms0_0 t) (hs0_0 t) (ms0_1 t) (hs0_1 t) (ms0_2 t) (hs0_2 t) (ms0_3 t) (hs0_3 t) (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1000000 in
/-- The body at any point: the inputs' buffers hold their blocks, so the body's run applies; the invariant and the
    core's `owes` pass through unread; the output's buffer ends at the run's pieces read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold out0_3
  iintro ⟨HΦ, Ho, ⟨%d0, H0⟩, ⟨%d1, H1⟩, ⟨%d2, H2⟩, ⟨%d3, H3⟩⟩
  iapply ((kernelRun c (grid0.coords t) (ms0_0 t) (hs0_0 t) (ms0_1 t) (hs0_1 t) (ms0_2 t) (hs0_2 t) (ms0_3 t) (hs0_3 t) (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the launch at what the proof data's write-backs make of it and every other unscoped buffer as the later lines
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.Kernel.Around

end
-- ==== Proof.KIHostLines.lean ====
/-
  The host lines around the one launch of `KernelIdeal`'s @main: seven lines before it (a transpose of the activations;
  the five weight matrices stacked row-wise, reshaped, transposed and narrowed; the five bias vectors stacked and given a
  unit leading axis) and five after it (the five column slices of the launch's result).
  Here: what each TensorCore buffer holds when the launch is entered (`V0`, `V`), that @main is those lines, the
  launch, those lines (`hmain`), that the later lines stay inside the launch's arrays and the buffers that bypass it,
  allocate nothing and write no array of the launch, that no line writes an argument array (`V_main_argK`,
  `W_main_argK`), each window's block at a grid point (`iblk`), that an input window's staging buffer holds its block
  at every point, and the frame claim's post from a run to the launch's post (`frame_of`). All at any float instance.
-/
import proofs.«130648_g14216341750014_cont_week2b_1508_3_alg».proof.Proof.Gen.KernelIdeal.Launch
import proofs.«130648_g14216341750014_cont_week2b_1508_3_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## @main around the launch -/

/-- Core `c`'s TensorCore buffers when the launch is entered, as a valuation: the launch memory after the seven
    lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines before the launch allocate nothing. -/
theorem hostOps0_fresh : (hostOps0 : List (HloOp τ sig (Elt F))).Forall fun op => op.fresh = ∅ := by
  simp only [List.Forall]; repeat' constructor
/-- Nor do the lines after it. -/
theorem hostOps1_fresh : (hostOps1 : List (HloOp τ sig (Elt F))).Forall fun op => op.fresh = ∅ := by
  simp only [List.Forall]; repeat' constructor

/-- @main is the lines before the launch, the launch, the lines after it: it reduces to the launch continued by the later
    lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the launch's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own slice buffer, which is no array of the launch. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no line -/

/-- No line before the launch writes `main_arg0`: the launch finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg1`: the launch finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg2`: the launch finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg3`: the launch finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg4`: the launch finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg5`: the launch finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg6`: the launch finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg7`: the launch finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg8`: the launch finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg9`: the launch finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes `main_arg10`: the launch finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No line after the launch writes `main_arg0` either: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No line after the launch writes `main_arg1` either: it ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No line after the launch writes `main_arg2` either: it ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No line after the launch writes `main_arg3` either: it ends as launched. -/
theorem W_main_arg3 (dats : (p : Fin 1) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No line after the launch writes `main_arg4` either: it ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No line after the launch writes `main_arg5` either: it ends as launched. -/
theorem W_main_arg5 (dats : (p : Fin 1) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No line after the launch writes `main_arg6` either: it ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No line after the launch writes `main_arg7` either: it ends as launched. -/
theorem W_main_arg7 (dats : (p : Fin 1) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No line after the launch writes `main_arg8` either: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No line after the launch writes `main_arg9` either: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-- No line after the launch writes `main_arg10` either: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the launch finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch's -/

/-- For any proof data, a run to the launch's post read after the later lines gives the frame claim's post: every argument
    array is a buffer that bypasses the launch, and no line writes it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

end Cert.KernelIdeal.Around

end
-- ==== Proof.KIBodyRun.lean ====
/-
  The body of `KernelIdeal`'s kernel run once, on whole staging buffers: the three inputs' at read contents, the output's
  at anything. The body loads the bias row, then for each of the 49 spatial positions loads that position's slab of the
  activations block and of the weights, multiplies them and adds the product to the running sum; it reads the output
  buffer once (the value is unused) and stores the sum over the whole output buffer. The run's witness is the list of
  pieces the output buffer ends with (one store, covering it).
-/
import proofs.«130648_g14216341750014_cont_week2b_1508_3_alg».proof.Proof.KIHostLines
import proofs.«130648_g14216341750014_cont_week2b_1508_3_alg».proof.Proof.Gen.KernelIdeal.Skeleton

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's one store leaves in the output's staging buffer, with the proof that on whole staging buffers —
    the inputs' at contents `x0`, `x1`, `x2`, the output's at anything — the body runs to the continuation holding the
    inputs' as they were and the output's with those pieces written. -/
noncomputable def kernelRun (c : Dev nD) (i : grid0.Coords) (arg1 : Memref sig .tc .vmem S7x7x200x256 .f32) (harg1 : arg1.IsWhole) (arg2 : Memref sig .tc .vmem S7x7x256x168 .bf16) (harg2 : arg2.IsWhole) (arg3 : Memref sig .tc .vmem S1x168 .f32) (harg3 : arg3.IsWhole) (arg4 : Memref sig .tc .vmem S200x168 .f32) (harg4 : arg4.IsWhole)
    (x0 : Vec F S7x7x200x256 .f32) (x1 : Vec F S7x7x256x168 .bf16) (x2 : Vec F S1x168 .f32) :
    { L : List (View.Piece (Elt F) S200x168 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc0__fused_heads_kernel i arg1 harg1 arg2 harg2 arg3 harg3 arg4 harg4) K } := by
  refine ⟨?_, fun E K => ?run⟩
  case run =>
    simp only [cc0__fused_heads_kernel_eq_skeleton]; unfold cc0__fused_heads_kernel_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Around

end
-- ==== Proof.KIFrame.lean ====
/-
  The launch of `KernelIdeal` certified: what the output's staging buffer holds after the body at a grid point (the body's one
  store read back, over that point's blocks of the three inputs), the launch's proof data (the arrays as the launch finds
  them; after the body each input's buffer still at its block and the output's at the store read back; nothing kept between
  points), the body obligation at every point from the one run of the body, the run of @main to the launch's post read
  after the later lines, and the frame claim's post: every argument array ends as launched. At any float instance.
-/
import proofs.«130648_g14216341750014_cont_week2b_1508_3_alg».proof.Proof.KIBodyRun
import Idealize.ShloMosaic.Lib.Ring

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev ms0_0 (t : Fin cfg0.N) : Memref sig .tc .vmem S7x7x200x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7x7x256x168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x168 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x168 .f32 := win0_3.stage (cfg0.slots t 3)
abbrev hs0_3 (t : Fin cfg0.N) : (ms0_3 t).IsWhole := hstage0_3 ((cfg0.slots t 3).cast nbuf0_3)

/-- A view of the output block's shape, through which the body's pieces are read back. -/
abbrev VO : View sig .tc .vmem S200x168 .f32 := (Memref.whole cc0_stg3_0 : Memref sig .tc .vmem S200x168 .f32).view

/-! ## What the body leaves in the output's buffer -/

/-- The body's one store tiles the output block, so its pieces cover it. -/
theorem cover0_3 (c : Dev nD) (i : grid0.Coords) (arg1 : Memref sig .tc .vmem S7x7x200x256 .f32) (harg1 : arg1.IsWhole) (arg2 : Memref sig .tc .vmem S7x7x256x168 .bf16) (harg2 : arg2.IsWhole) (arg3 : Memref sig .tc .vmem S1x168 .f32) (harg3 : arg3.IsWhole) (arg4 : Memref sig .tc .vmem S200x168 .f32) (harg4 : arg4.IsWhole)
    (x0 : Vec F S7x7x200x256 .f32) (x1 : Vec F S7x7x256x168 .bf16) (x2 : Vec F S1x168 .f32) (y : S200x168.Idx) :
    ∃ pc ∈ (kernelRun c i arg1 harg1 arg2 harg2 arg3 harg3 arg4 harg4 x0 x1 x2).1, y ∈ pc.1.set :=
  View.cover_of_tiledL (kernelRun c i arg1 harg1 arg2 harg2 arg3 harg3 arg4 harg4 x0 x1 x2).1 S200x168.size (by sl_kernel_rfl) y

/-- What the body leaves in the output's staging buffer: its pieces read back over junk. -/
def out0_3 (c : Dev nD) (i : grid0.Coords) (arg1 : Memref sig .tc .vmem S7x7x200x256 .f32) (harg1 : arg1.IsWhole) (arg2 : Memref sig .tc .vmem S7x7x256x168 .bf16) (harg2 : arg2.IsWhole) (arg3 : Memref sig .tc .vmem S1x168 .f32) (harg3 : arg3.IsWhole) (arg4 : Memref sig .tc .vmem S200x168 .f32) (harg4 : arg4.IsWhole)
    (x0 : Vec F S7x7x200x256 .f32) (x1 : Vec F S7x7x256x168 .bf16) (x2 : Vec F S1x168 .f32) : Vec F S200x168 .f32 :=
  VO.read (Elt F) (VO.writes (Elt F) VO.junk (kernelRun c i arg1 harg1 arg2 harg2 arg3 harg3 arg4 harg4 x0 x1 x2).1)

/-! ## The launch's proof data -/

/-- The proof data of the launch on core `c`: the arrays as the launch finds them; after the body at point `t` each
    input's buffer at its block and the output's at the body's store read back over the point's input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 c (grid0.coords t) (ms0_0 t) (hs0_0 t) (ms0_1 t) (hs0_1 t) (ms0_2 t) (hs0_2 t) (ms0_3 t) (hs0_3 t) (iblk m c 0 t) (iblk m c 1 t) (iblk m c 2 t)
  Φ _ := Pipeline.ΦA spec0 c
  q _ := fullShare
  owed _ := 0

/-- The proof data's arrays are the entry contents (the definition projected, `V` never unfolded). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = out0_3 c (grid0.coords t) (ms0_0 t) (hs0_0 t) (ms0_1 t) (hs0_1 t) (ms0_2 t) (hs0_2 t) (ms0_3 t) (hs0_3 t) (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1000000 in
/-- The body at any point: the inputs' buffers hold their blocks, so the body's run applies; the invariant and the
    core's `owes` pass through unread; the output's buffer ends at the run's pieces read back, which cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold out0_3
  iintro ⟨HΦ, Ho, ⟨%d0, H0⟩, ⟨%d1, H1⟩, ⟨%d2, H2⟩, ⟨%d3, H3⟩⟩
  iapply ((kernelRun c (grid0.coords t) (ms0_0 t) (hs0_0 t) (ms0_1 t) (hs0_1 t) (ms0_2 t) (hs0_2 t) (ms0_3 t) (hs0_3 t) (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the launch at what the proof data's write-backs make of it and every other unscoped buffer as the later lines
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.KernelIdeal.Around

end
-- ==== Proof.KIPiece.lean ====
/-
  What the body's one store holds, at the ideal instance, entry by entry: the bias row's entry of that column plus, over
  the 49 spatial positions, the product of that position's slab of the activations block with that position's slab of the
  weights: out (p, q) = b (0, q) + Σ_i Σ_j Σ_ch x (i, j, p, ch) · w (i, j, ch, q).
-/
import proofs.«130648_g14216341750014_cont_week2b_1508_3_alg».proof.Proof.KIFrame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx

/-- A `[1, 1, a, b]` array cast to `[a, b]` reads, at `(i, j)`, the operand at `(0, 0, i, j)`: the two row-major
    positions agree. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-! ## The slab product at an entry

The contraction `[200,256] · [256,168]` pairs the left operand's second axis with the right operand's first: its
operand indices at output entry `(p, q)` and contraction position `ch` are `(p, ch)` and `(ch, q)`. -/

theorem lhs_slab_0 (i : S200x168.Idx) (k : dot_S200x256_S256x168_S200x168_1_0_0_1_n_n.contr.Idx) :
    (dot_S200x256_S256x168_S200x168_1_0_0_1_n_n.lhsIdx i k 0).val = (i 0).val := by
  unfold DotDims.lhsIdx
  rw [dif_neg (show ¬(0 : Fin S200x256.rank) ∈ dot_S200x256_S256x168_S200x168_1_0_0_1_n_n.lhsBatch by decide), dif_pos (show (0 : Fin S200x256.rank) ∈ dot_S200x256_S256x168_S200x168_1_0_0_1_n_n.lhsNonContracting by decide)]
  rfl
theorem lhs_slab_1 (i : S200x168.Idx) (k : dot_S200x256_S256x168_S200x168_1_0_0_1_n_n.contr.Idx) :
    (dot_S200x256_S256x168_S200x168_1_0_0_1_n_n.lhsIdx i k 1).val = (k ⟨0, by decide⟩).val :=
  dot_S200x256_S256x168_S200x168_1_0_0_1_n_n.lhsIdx_val_of_single rfl i k
theorem rhs_slab_0 (i : S200x168.Idx) (k : dot_S200x256_S256x168_S200x168_1_0_0_1_n_n.contr.Idx) :
    (dot_S200x256_S256x168_S200x168_1_0_0_1_n_n.rhsIdx i k 0).val = (k ⟨0, by decide⟩).val :=
  dot_S200x256_S256x168_S200x168_1_0_0_1_n_n.rhsIdx_val_of_single rfl i k
theorem rhs_slab_1 (i : S200x168.Idx) (k : dot_S200x256_S256x168_S200x168_1_0_0_1_n_n.contr.Idx) :
    (dot_S200x256_S256x168_S200x168_1_0_0_1_n_n.rhsIdx i k 1).val = (i 1).val := by
  unfold DotDims.rhsIdx
  rw [dif_neg (show ¬(1 : Fin S256x168.rank) ∈ dot_S200x256_S256x168_S200x168_1_0_0_1_n_n.rhsBatch by decide), dif_pos (show (1 : Fin S256x168.rank) ∈ dot_S200x256_S256x168_S200x168_1_0_0_1_n_n.rhsNonContracting by decide)]
  rfl

/-- The product of two slabs into a zero accumulator, at entry `(p, q)`: the sum over the 256 channels. -/
theorem slab_matmul_apply (l : FVec Ideal S200x256 .bf16) (r : FVec Ideal S256x168 .bf16) (p : Fin 200) (q : Fin 168) :
    matmul dot_S200x256_S256x168_S200x168_1_0_0_1_n_n none l r (constant (F := Ideal) S200x168 .f32 0x00000000#32) (ix2 p q)
      = ∑ ch : Fin 256, l (ix2 p ch) * r (ix2 ch q) := by
  show FloatOps.matmul dot_S200x256_S256x168_S200x168_1_0_0_1_n_n none l r (constant (F := Ideal) S200x168 .f32 0x00000000#32) (ix2 p q) = _
  rw [Ideal.matmul_constant_zero_apply, ← Equiv.sum_comp (contrEquiv1 dot_S200x256_S256x168_S200x168_1_0_0_1_n_n 256 rfl rfl).symm]
  refine Finset.sum_congr rfl fun k _ => ?_
  have hk := contrEquiv1_symm_val dot_S200x256_S256x168_S200x168_1_0_0_1_n_n 256 rfl rfl k
  have el : dot_S200x256_S256x168_S200x168_1_0_0_1_n_n.lhsIdx (ix2 p q) ((contrEquiv1 dot_S200x256_S256x168_S200x168_1_0_0_1_n_n 256 rfl rfl).symm k) = ix2 p k := funext fun a => Fin.ext (by
    match a with
    | ⟨0, _⟩ => exact lhs_slab_0 _ _
    | ⟨1, _⟩ => exact (lhs_slab_1 _ _).trans hk)
  have er : dot_S200x256_S256x168_S200x168_1_0_0_1_n_n.rhsIdx (ix2 p q) ((contrEquiv1 dot_S200x256_S256x168_S200x168_1_0_0_1_n_n 256 rfl rfl).symm k) = ix2 k q := funext fun a => Fin.ext (by
    match a with
    | ⟨0, _⟩ => exact (rhs_slab_0 _ _).trans hk
    | ⟨1, _⟩ => exact rhs_slab_1 _ _)
  rw [el, er]

/-- One position's step at an entry: the accumulator's entry plus the channel sum of that position's two slabs
    (the narrowing of the activations is the identity on ideal values). -/
theorem step_apply (acc : FVec Ideal S200x168 .f32) (xs : FVec Ideal S1x1x200x256 .f32) (ws : FVec Ideal S1x1x256x168 .bf16)
    (p : Fin 200) (q : Fin 168) :
    addf acc (matmul dot_S200x256_S256x168_S200x168_1_0_0_1_n_n none
        (truncf .bf16 (shapeCast S200x256 xs shapeCasts_S1x1x200x256_S200x256) bitsLt_bf16_f32)
        (shapeCast S256x168 ws shapeCasts_S1x1x256x168_S256x168)
        (constant (F := Ideal) S200x168 .f32 0x00000000#32)) (ix2 p q)
      = acc (ix2 p q) + ∑ ch : Fin 256, xs (ix4 (0 : Fin 1) (0 : Fin 1) p ch) * ws (ix4 (0 : Fin 1) (0 : Fin 1) ch q) := by
  rw [addf_apply, slab_matmul_apply]
  refine congrArg (acc (ix2 p q) + ·) (Finset.sum_congr rfl fun ch _ => ?_)
  rw [truncf_apply, shapeCast_11ab_ab_apply, shapeCast_11ab_ab_apply]

/-! ## Where the loads read, the bias row and the seven-term sums -/

theorem hz2 : (![0, 0] : Fin 2 → Nat) = fun _ => 0 := funext fun a => by fin_cases a <;> rfl

/-- The activations slab at spatial position `(a, b)` sits in the block at `(a, b, ·, ·)`: its index `(0, 0, p, ch)`
    is the block's `(a, b, p, ch)`. -/
theorem act_idx (a b : Nat)
    (inb : ∀ ax, (![a, b, 0, 0] : Fin 4 → Nat) ax + (![1, 1, 200, 256] : Fin 4 → Nat) ax ≤ S7x7x200x256.size ax) (p : Fin 200) (ch : Fin 256) :
    (Rect.unit (s := S7x7x200x256) ![a, b, 0, 0] ![1, 1, 200, 256] inb).toLoadRect.idx (ix4 (0 : Fin 1) (0 : Fin 1) p ch)
      = ix4 (⟨a, (inb 0 : a + 1 ≤ 7)⟩ : Fin 7) (⟨b, (inb 1 : b + 1 ≤ 7)⟩ : Fin 7) p ch := by
  refine funext fun ax => Fin.ext ?_
  match ax with
  | ⟨0, _⟩ => show a + 1 * 0 = a; omega
  | ⟨1, _⟩ => show b + 1 * 0 = b; omega
  | ⟨2, _⟩ => show 0 + 1 * p.val = p.val; omega
  | ⟨3, _⟩ => show 0 + 1 * ch.val = ch.val; omega

/-- The weights slab at spatial position `(a, b)` likewise: its index `(0, 0, ch, q)` is the block's `(a, b, ch, q)`. -/
theorem wgt_idx (a b : Nat)
    (inb : ∀ ax, (![a, b, 0, 0] : Fin 4 → Nat) ax + (![1, 1, 256, 168] : Fin 4 → Nat) ax ≤ S7x7x256x168.size ax) (ch : Fin 256) (q : Fin 168) :
    (Rect.unit (s := S7x7x256x168) ![a, b, 0, 0] ![1, 1, 256, 168] inb).toLoadRect.idx (ix4 (0 : Fin 1) (0 : Fin 1) ch q)
      = ix4 (⟨a, (inb 0 : a + 1 ≤ 7)⟩ : Fin 7) (⟨b, (inb 1 : b + 1 ≤ 7)⟩ : Fin 7) ch q := by
  refine funext fun ax => Fin.ext ?_
  match ax with
  | ⟨0, _⟩ => show a + 1 * 0 = a; omega
  | ⟨1, _⟩ => show b + 1 * 0 = b; omega
  | ⟨2, _⟩ => show 0 + 1 * ch.val = ch.val; omega
  | ⟨3, _⟩ => show 0 + 1 * q.val = q.val; omega

/-- The bias row is read whole: its index `(0, q)` is the block's `(0, q)`. -/
theorem bias_idx (inb : ∀ ax, (![0, 0] : Fin 2 → Nat) ax + (![1, 168] : Fin 2 → Nat) ax ≤ S1x168.size ax) (q : Fin 168) :
    (Rect.unit (s := S1x168) ![0, 0] ![1, 168] inb).toLoadRect.idx (ix2 (0 : Fin 1) q) = ix2 (0 : Fin 1) q := by
  refine funext fun ax => Fin.ext ?_
  match ax with
  | ⟨0, _⟩ => show 0 + 1 * 0 = 0; omega
  | ⟨1, _⟩ => show 0 + 1 * q.val = q.val; omega

/-- The accumulator's first value, the bias row spread over the 200 rows, at `(p, q)`: the row's entry `q`. -/
theorem bias_apply (bs : FVec Ideal S1x168 .f32) (p : Fin 200) (q : Fin 168) :
    broadcastTo S200x168 (shapeCast S1x168 bs shapeCasts_S1x168_S1x168) broadcasts_S1x168_S200x168 (ix2 p q)
      = bs (ix2 (0 : Fin 1) q) := by
  rw [shapeCast_self, broadcastTo_1b_ab_apply]

/-- A sum over seven positions written out, each position by its number. -/
theorem sum_seven {M : Type} [AddCommMonoid M] (f : Fin 7 → M) :
    ∑ i, f i = f ⟨0, by decide⟩ + f ⟨1, by decide⟩ + f ⟨2, by decide⟩ + f ⟨3, by decide⟩ + f ⟨4, by decide⟩
      + f ⟨5, by decide⟩ + f ⟨6, by decide⟩ :=
  Fin.sum_univ_seven f

/-! ## The body's store at an entry -/

/-- The output block's entry `(p, q)` after the body, from the three input blocks. -/
theorem out0_3_apply (c : Dev nD) (i : grid0.Coords) (arg1 : Memref sig .tc .vmem S7x7x200x256 .f32) (harg1 : arg1.IsWhole) (arg2 : Memref sig .tc .vmem S7x7x256x168 .bf16) (harg2 : arg2.IsWhole) (arg3 : Memref sig .tc .vmem S1x168 .f32) (harg3 : arg3.IsWhole) (arg4 : Memref sig .tc .vmem S200x168 .f32) (harg4 : arg4.IsWhole)
    (x0 : Vec Ideal S7x7x200x256 .f32) (x1 : Vec Ideal S7x7x256x168 .bf16) (x2 : Vec Ideal S1x168 .f32) (p : Fin 200) (q : Fin 168) :
    out0_3 (F := Ideal) c i arg1 harg1 arg2 harg2 arg3 harg3 arg4 harg4 x0 x1 x2 (ix2 p q)
      = x2 (ix2 (0 : Fin 1) q) + ∑ i' : Fin 7, ∑ j : Fin 7, ∑ ch : Fin 256, x0 (ix4 i' j p ch) * x1 (ix4 i' j ch q) := by
  unfold out0_3
  rw [View.read_writes_eq_canon _ _ _ (cover0_3 c i arg1 harg1 arg2 harg2 arg3 harg3 arg4 harg4 x0 x1 x2)]
  unfold kernelRun
  dsimp only
  sl_unfold_words
  rw [View.canon_unit_zero hz2]
  unfold k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27
  dsimp only
  simp only [step_apply, bias_apply, View.readAt_apply, harg1.read_unread, harg2.read_unread, harg3.read_unread,
    act_idx, wgt_idx, bias_idx]
  simp only [sum_seven, add_assoc]

end Cert.KernelIdeal.Around

end
-- ==== Proof.KIValue.lean ====
/-
  The launch's output array at the ideal instance, as one function of the three arrays the launch reads (the transposed
  activations X : [7,7,5000,256], the rearranged weights Wt : [7,7,256,168], the bias row B : [1,168]):
  out (r, o) = B (0, o) + Σ_i Σ_j Σ_ch X (i, j, r, ch) · Wt (i, j, ch, o).
  Grid point t writes back rows 200·t … 200·t + 199 (all 168 columns); it reads rows 200·t … of X on its third axis and
  the whole of Wt and B. The 25 blocks tile the 5000 rows, so the array ends holding that function everywhere; the five
  results are its column slices [0,32), [32,156), [156,159), [159,166), [166,168).
-/
import proofs.«130648_g14216341750014_cont_week2b_1508_3_alg».proof.Proof.KIPiece

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx

variable (m : (ℓ : Loc nD τ sig) → Buf (Elt Ideal) ℓ) (ρ : Dev nD → PrngReg)

/-- The three arrays the launch reads, as it finds them. -/
abbrev Xarr (c : Dev nD) : S7x7x5000x256.Idx → EReal := V m c main_v0
abbrev Warr (c : Dev nD) : S7x7x256x168.Idx → EReal := V m c main_v4
abbrev Barr (c : Dev nD) : S1x168.Idx → EReal := V m c main_v6

/-- Entry `(r, o)` of the launch's result. -/
def outAt (c : Dev nD) (r : Fin 5000) (o : Fin 168) : EReal :=
  Barr m c (ix2 (0 : Fin 1) o) + ∑ i : Fin 7, ∑ j : Fin 7, ∑ ch : Fin 256, Xarr m c (ix4 i j r ch) * Warr m c (ix4 i j ch o)

/-- The launch's result array. -/
def outArr (c : Dev nD) : S5000x168.Idx → EReal := fun y => outAt m c ⟨(y 0).val, (y 0).isLt⟩ ⟨(y 1).val, (y 1).isLt⟩

/-- The printed index maps over the grid: the activations and the result move along their row axis with the point; the
    weights and the bias stay. -/
theorem idx_facts : ∀ t : Fin cfg0.N,
    win0_0.index t (0 : Fin 4) = 0 ∧ win0_0.index t (1 : Fin 4) = 0 ∧ win0_0.index t (2 : Fin 4) = t.val ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations block at point `t` is rows `200 t …` of the third axis. -/
theorem blk_x (c : Dev nD) (t : Fin cfg0.N) (i j : Fin 7) (p : Fin 200) (ch : Fin 256) :
    iblk m c 0 t (ix4 i j p ch) = Xarr m c (ix4 i j ⟨t.val * 200 + p.val, by have := t.isLt; have h : cfg0.N = 25 := N_0; have := p.isLt; omega⟩ ch) := by
  obtain ⟨e0, e1, e2, e3, -⟩ := idx_facts t
  show V m c main_v0 (((cfg0.win 0).blk t).view.emb (ix4 i j p ch)) = V m c main_v0 _
  congr 1
  funext a; apply Fin.ext
  match a with
  | ⟨0, _⟩ => show win0_0.index t (0 : Fin 4) * 7 + 1 * i.val = i.val; omega
  | ⟨1, _⟩ => show win0_0.index t (1 : Fin 4) * 7 + 1 * j.val = j.val; omega
  | ⟨2, _⟩ => show win0_0.index t (2 : Fin 4) * 200 + 1 * p.val = t.val * 200 + p.val; omega
  | ⟨3, _⟩ => show win0_0.index t (3 : Fin 4) * 256 + 1 * ch.val = ch.val; omega

/-- The weights block is the whole array at every point. -/
theorem blk_w (c : Dev nD) (t : Fin cfg0.N) (i j : Fin 7) (ch : Fin 256) (o : Fin 168) :
    iblk m c 1 t (ix4 i j ch o) = Warr m c (ix4 i j ch o) := by
  obtain ⟨-, -, -, -, e0, e1, e2, e3, -⟩ := idx_facts t
  show V m c main_v4 (((cfg0.win 1).blk t).view.emb (ix4 i j ch o)) = V m c main_v4 _
  congr 1
  funext a; apply Fin.ext
  match a with
  | ⟨0, _⟩ => show win0_1.index t (0 : Fin 4) * 7 + 1 * i.val = i.val; omega
  | ⟨1, _⟩ => show win0_1.index t (1 : Fin 4) * 7 + 1 * j.val = j.val; omega
  | ⟨2, _⟩ => show win0_1.index t (2 : Fin 4) * 256 + 1 * ch.val = ch.val; omega
  | ⟨3, _⟩ => show win0_1.index t (3 : Fin 4) * 168 + 1 * o.val = o.val; omega

/-- So is the bias block. -/
theorem blk_b (c : Dev nD) (t : Fin cfg0.N) (o : Fin 168) :
    iblk m c 2 t (ix2 (0 : Fin 1) o) = Barr m c (ix2 (0 : Fin 1) o) := by
  obtain ⟨-, -, -, -, -, -, -, -, e0, e1, -⟩ := idx_facts t
  show V m c main_v6 (((cfg0.win 2).blk t).view.emb (ix2 (0 : Fin 1) o)) = V m c main_v6 _
  congr 1
  funext a; apply Fin.ext
  match a with
  | ⟨0, _⟩ => show win0_2.index t (0 : Fin 2) * 1 + 1 * 0 = 0; omega
  | ⟨1, _⟩ => show win0_2.index t (1 : Fin 2) * 168 + 1 * o.val = o.val; omega

/-! ## Block by block, then the whole array -/

attribute [local irreducible] out0_3

/-- A value of the output block's shape is what point `t` writes back of an array `G` as soon as it agrees with `G`
    entry by entry under the block's place in the array. -/
theorem cut_eq (t : Fin cfg0.N) (X : Vec Ideal S200x168 .f32) (G : S5000x168.Idx → EReal)
    (h : ∀ (p : Fin 200) (q : Fin 168), X (ix2 p q) = G (((cfg0.win 3).blk t).view.emb (ix2 p q))) :
    (cfg0.win 3).cut (grid0.coords t) X = ((cfg0.win 3).blk t).view.read (Elt Ideal) G := by
  funext y
  obtain ⟨p, q, rfl⟩ : ∃ (p : Fin 200) (q : Fin 168), y = ix2 p q :=
    ⟨⟨(y 0).val, (y 0).isLt⟩, ⟨(y 1).val, (y 1).isLt⟩, funext fun a => by match a with | ⟨0, _⟩ => rfl | ⟨1, _⟩ => rfl⟩
  exact h p q

/-- What point `t` writes back is block `t` of the result array: rows `200 t … 200 t + 199`. -/
theorem flushed_eq (c : Dev nD) (t : Fin cfg0.N) :
    (dats m 0 c).flushed 3 t = ((cfg0.win 3).blk t).view.read (Elt Ideal) (outArr m c) := by
  obtain ⟨-, -, -, -, -, -, -, -, -, -, e0, e1⟩ := idx_facts t
  have hN : t.val < 25 := lt_of_lt_of_eq t.isLt (show cfg0.N = 25 from N_0)
  show (cfg0.win 3).cut (grid0.coords t) ((dats m 0 c).after 3 t) = _
  rw [after0_3]
  refine cut_eq t _ _ fun p q => ?_
  have key : outArr m c (((cfg0.win 3).blk t).view.emb (ix2 p q))
      = outAt m c ⟨t.val * 200 + p.val, by have := p.isLt; omega⟩ q := by
    show outAt m c _ _ = outAt m c _ _
    exact congrArg₂ (outAt m c)
      (Fin.ext (by show win0_3.index t (0 : Fin 2) * 200 + 1 * p.val = t.val * 200 + p.val; omega))
      (Fin.ext (by show win0_3.index t (1 : Fin 2) * 168 + 1 * q.val = q.val; omega))
  rw [key, out0_3_apply]
  unfold outAt
  simp only [blk_x, blk_w, blk_b]
/-- An entry of the result array lies in point `t`'s block iff its row is among the block's 200 rows. -/
theorem mem_blk (t : Fin cfg0.N) (i : S5000x168.Idx) :
    i ∈ ((cfg0.win 3).blk t).view.set ↔ ∀ a : Fin 2, win0_3.index t a * S200x168.size a ≤ (i a).val ∧ (i a).val < win0_3.index t a * S200x168.size a + S200x168.size a := by
  show i ∈ ((View.whole main_v7).slice (win0_3.rect t)).set ↔ _
  rw [View.set_slice_whole, Rect.mem_set_unit]
  exact Iff.rfl

/-- Row `r` is written back by point `r / 200`: the 25 blocks tile the 5000 rows. -/
theorem cover (i : S5000x168.Idx) :
    ∃ t : Fin cfg0.N, (cfg0.win 3).flush t = true ∧ i ∈ ((cfg0.win 3).blk t).view.set := by
  have h0 : (i 0).val < 5000 := (i 0).isLt
  have h1 : (i 1).val < 168 := (i 1).isLt
  have ht : (i 0).val / 200 < cfg0.N := by rw [show cfg0.N = 25 from N_0]; omega
  obtain ⟨-, -, -, -, -, -, -, -, -, -, e0, e1⟩ := idx_facts ⟨(i 0).val / 200, ht⟩
  have e0' : win0_3.index ⟨(i 0).val / 200, ht⟩ (0 : Fin 2) = (i 0).val / 200 := e0
  refine ⟨⟨(i 0).val / 200, ht⟩, flush0_3 _, ?_⟩
  rw [mem_blk]
  intro a
  match a with
  | ⟨0, _⟩ =>
    show win0_3.index ⟨(i 0).val / 200, ht⟩ (0 : Fin 2) * 200 ≤ (i 0).val ∧ (i 0).val < win0_3.index ⟨(i 0).val / 200, ht⟩ (0 : Fin 2) * 200 + 200
    rw [e0']; omega
  | ⟨1, _⟩ =>
    show win0_3.index ⟨(i 0).val / 200, ht⟩ (1 : Fin 2) * 168 ≤ (i 1).val ∧ (i 1).val < win0_3.index ⟨(i 0).val / 200, ht⟩ (1 : Fin 2) * 168 + 168
    rw [e1]; omega

/-- The result array after the launch. -/
theorem final (c : Dev nD) : (dats m 0 c).arrAt 3 cfg0.N = outArr m c :=
  (dats m 0 c).arrAt_eq_of_cover 3 (outArr m c) (fun t _ => flushed_eq m c t) (cover)

end Cert.KernelIdeal.Around

end
-- ==== Proof.KIEntry.lean ====
/-
  What the one launch of `KernelIdeal`'s @main finds in its three input arrays, entry by entry, at the ideal instance.
  The seven lines before the launch transpose the activations, stack the five weight matrices row-wise into one of 168 rows,
  reshape each row of 12544 to 256 × 7 × 7, move the spatial axes to the front and the rows to the back, narrow to
  sixteen bits (the identity on extended reals), stack the five bias vectors into one of 168 entries and give it a unit
  leading axis. So: the activation array at (i, j, r, ch) is the argument at (r, ch, i, j); the weight array at
  (i, j, ch, o) is row o of the stack at column ch · 49 + i · 7 + j; the bias array at (0, o) is entry o of the stacked
  biases. Row (entry) offset + q of a stack is row (entry) q of the matrix (vector) stacked at that offset:
  0, 32, 156, 159, 166.
-/
import proofs.«130648_g14216341750014_cont_week2b_1508_3_alg».proof.Proof.KIHostLines
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

/-! ## A five-operand line -/

/-- The result of a line over a literal family of five references, with each operand's contents at its own reference
    (so that what the earlier lines left at each operand can be rewritten in turn). -/
theorem nary5_result {x a b d e y : Ref sig .tc}
    (f : ((k : Fin 5) → ((![x, a, b, d, e] : Fin 5 → Ref sig .tc) k).ty.Contents (Elt Ideal)) → y.ty.Contents (Elt Ideal)) (hxs hy)
    (G : Valuation τ sig (Elt Ideal)) :
    (StableHlo.nary (τ := τ) ![x, a, b, d, e] y f hxs hy).result G (Proc.devRef .tc y)
      = f (Fin.cons (G (Proc.devRef .tc x)) (Fin.cons (G (Proc.devRef .tc a)) (Fin.cons (G (Proc.devRef .tc b))
          (Fin.cons (G (Proc.devRef .tc d)) (Fin.cons (G (Proc.devRef .tc e)) (fun i => i.elim0)))))) := by
  rw [StableHlo.nary_result]; congr 1; funext k; fin_cases k <;> rfl

/-- What a buffer holds after the seven lines: each line's result at its own buffer is its function of what the
    earlier lines left at its operands; at any other buffer it is what was there. -/
macro "host_lines" : tactic =>
  `(tactic| (simp only [StableHlo.after_cons, StableHlo.after_nil]
             repeat (first
               | rw [nary5_result] | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

/-! ## The stacked weights and biases -/

/-- The five weight matrices of core `c` stacked row-wise: 32 + 124 + 3 + 7 + 2 = 168 rows of 12544. -/
def Wall (c : Dev nD) : S168x12544.Idx → EReal :=
  concatenate S168x12544 0
    [⟨S32x12544, m ((c : Thread nD τ).loc main_arg1)⟩, ⟨S124x12544, m ((c : Thread nD τ).loc main_arg3)⟩,
     ⟨S3x12544, m ((c : Thread nD τ).loc main_arg5)⟩, ⟨S7x12544, m ((c : Thread nD τ).loc main_arg7)⟩,
     ⟨S2x12544, m ((c : Thread nD τ).loc main_arg9)⟩]
    concatenates_S32x12544_S124x12544_S3x12544_S7x12544_S2x12544_S168x12544_d0

/-- The five bias vectors of core `c` stacked: 168 entries. -/
def ball (c : Dev nD) : S168.Idx → EReal :=
  concatenate S168 0
    [⟨S32, m ((c : Thread nD τ).loc main_arg2)⟩, ⟨S124, m ((c : Thread nD τ).loc main_arg4)⟩,
     ⟨S3, m ((c : Thread nD τ).loc main_arg6)⟩, ⟨S7, m ((c : Thread nD τ).loc main_arg8)⟩,
     ⟨S2, m ((c : Thread nD τ).loc main_arg10)⟩]
    concatenates_S32_S124_S3_S7_S2_S168_d0

/-! ## The three input arrays as terms over the arguments -/

/-- The activation array: the first argument with its two spatial axes moved to the front. -/
theorem arr_v0 (c : Dev nD) : (V m c main_v0 : S7x7x5000x256.Idx → EReal)
    = transpose S7x7x5000x256 [2, 3, 0, 1] (m ((c : Thread nD τ).loc main_arg0)) transposes_S5000x256x7x7_S7x7x5000x256_2_3_0_1 := by
  show StableHlo.after hostOps0 (fun b => m (c, b)) (Proc.devRef .tc main_v0) = _
  host_lines

/-- The weight array: the stacked matrices, each row reshaped to 256 × 7 × 7, the spatial axes moved to the front and
    the rows to the back, narrowed. -/
theorem arr_v4 (c : Dev nD) : (V m c main_v4 : S7x7x256x168.Idx → EReal)
    = truncf (F := Ideal) .bf16 (transpose S7x7x256x168 [2, 3, 1, 0]
        (shapeCast S168x256x7x7 (Wall m c) shapeCasts_S168x12544_S168x256x7x7)
        transposes_S168x256x7x7_S7x7x256x168_2_3_1_0) bitsLt_bf16_f32 := by
  show StableHlo.after hostOps0 (fun b => m (c, b)) (Proc.devRef .tc main_v4) = _
  host_lines
  rfl

/-- The bias array: the stacked biases under a unit leading axis. -/
theorem arr_v6 (c : Dev nD) : (V m c main_v6 : S1x168.Idx → EReal)
    = broadcastInDim S1x168 ![1] bcast_S168_S1x168_1 (ball m c) := by
  show StableHlo.after hostOps0 (fun b => m (c, b)) (Proc.devRef .tc main_v6) = _
  host_lines
  rfl

/-! ## What the launch finds, entry by entry -/

/-- The activation array at (i, j, r, ch) is the first argument at (r, ch, i, j). -/
theorem entry_x (c : Dev nD) (i j : Fin 7) (r : Fin 5000) (ch : Fin 256) :
    (V m c main_v0 : S7x7x5000x256.Idx → EReal) (ValueIdx.ix4 i j r ch)
      = (m ((c : Thread nD τ).loc main_arg0) : S5000x256x7x7.Idx → EReal) (ValueIdx.ix4 r ch i j) := by
  rw [arr_v0]
  exact transpose_apply [2, 3, 0, 1] _ transposes_S5000x256x7x7_S7x7x5000x256_2_3_0_1 (ValueIdx.ix4 i j r ch) (ValueIdx.ix4 r ch i j)
    (fun b => match b with
      | ⟨0, _⟩ => rfl
      | ⟨1, _⟩ => rfl
      | ⟨2, _⟩ => rfl
      | ⟨3, _⟩ => rfl)

/-- The weight array at (i, j, ch, o) is row o of the stacked weights at column ch · 49 + i · 7 + j: the narrowing is the
    identity, the transposition sends (i, j, ch, o) to (o, ch, i, j), and that index of 168 × 256 × 7 × 7 has the
    row-major position o · 12544 + ch · 49 + i · 7 + j. -/
theorem entry_w (c : Dev nD) (i j : Fin 7) (ch : Fin 256) (o : Fin 168) :
    (V m c main_v4 : S7x7x256x168.Idx → EReal) (ValueIdx.ix4 i j ch o)
      = Wall m c (ValueIdx.ix2 o ⟨ch.val * 49 + i.val * 7 + j.val, by omega⟩) := by
  rw [arr_v4, ValueIdx.truncf_apply]
  refine (transpose_apply [2, 3, 1, 0] _ transposes_S168x256x7x7_S7x7x256x168_2_3_1_0 (ValueIdx.ix4 i j ch o) (ValueIdx.ix4 o ch i j)
    (fun b => match b with
      | ⟨0, _⟩ => rfl
      | ⟨1, _⟩ => rfl
      | ⟨2, _⟩ => rfl
      | ⟨3, _⟩ => rfl)).trans ?_
  exact shapeCast_apply (Wall m c) shapeCasts_S168x12544_S168x256x7x7 (ValueIdx.ix4 o ch i j)
    (ValueIdx.ix2 o ⟨ch.val * 49 + i.val * 7 + j.val, by omega⟩)
    (by rewrite [Shape.rowMajor_val_two, Shape.rowMajor_val_four]
        show o.val * 12544 + (ch.val * 49 + i.val * 7 + j.val) = ((o.val * 256 + ch.val) * 7 + i.val) * 7 + j.val
        omega)

/-- The bias array at (0, o) is entry o of the stacked biases. -/
theorem entry_b (c : Dev nD) (o : Fin 168) :
    (V m c main_v6 : S1x168.Idx → EReal) (ValueIdx.ix2 (0 : Fin 1) o) = ball m c (ValueIdx.ix1 o) := by
  rw [arr_v6]
  exact broadcastInDim_apply _ bcast_S168_S1x168_1 (ball m c) (ValueIdx.ix2 (0 : Fin 1) o) (ValueIdx.ix1 o)
    (fun a => match a with
      | ⟨0, _⟩ => by show o.val = if (168 : Nat) = 1 then 0 else o.val; rw [if_neg (by decide)])

/-! ## The stacked arrays, head by head

Row `offset + q` of the stack lies in the span of the piece stacked at `offset` (the extents before it sum to `offset`),
and is that piece's row `q`; the column is untouched. -/

theorem Wall_cls (c : Dev nD) (q : Fin 32) (k : Fin 12544) :
    Wall m c (ValueIdx.ix2 ⟨q.val, by omega⟩ k)
      = (m ((c : Thread nD τ).loc main_arg1) : S32x12544.Idx → EReal) (ValueIdx.ix2 q k) := by
  unfold Wall
  exact concatenate_apply_piece (0 : Fin S168x12544.rank) _ _ (ValueIdx.ix2 ⟨q.val, by omega⟩ k)
    0 (by simp) S32x12544 (m ((c : Thread nD τ).loc main_arg1)) rfl rfl 0 rfl (ValueIdx.ix2 q k)
    (fun b hb => match b, hb with | ⟨0, _⟩, hb => absurd rfl hb | ⟨1, _⟩, _ => rfl) (Nat.zero_add _)

theorem Wall_reg (c : Dev nD) (q : Fin 124) (k : Fin 12544) :
    Wall m c (ValueIdx.ix2 ⟨32 + q.val, by omega⟩ k)
      = (m ((c : Thread nD τ).loc main_arg3) : S124x12544.Idx → EReal) (ValueIdx.ix2 q k) := by
  unfold Wall
  exact concatenate_apply_piece (0 : Fin S168x12544.rank) _ _ (ValueIdx.ix2 ⟨32 + q.val, by omega⟩ k)
    1 (by simp) S124x12544 (m ((c : Thread nD τ).loc main_arg3)) rfl rfl 32 rfl (ValueIdx.ix2 q k)
    (fun b hb => match b, hb with | ⟨0, _⟩, hb => absurd rfl hb | ⟨1, _⟩, _ => rfl) rfl

theorem Wall_face (c : Dev nD) (q : Fin 3) (k : Fin 12544) :
    Wall m c (ValueIdx.ix2 ⟨156 + q.val, by omega⟩ k)
      = (m ((c : Thread nD τ).loc main_arg5) : S3x12544.Idx → EReal) (ValueIdx.ix2 q k) := by
  unfold Wall
  exact concatenate_apply_piece (0 : Fin S168x12544.rank) _ _ (ValueIdx.ix2 ⟨156 + q.val, by omega⟩ k)
    2 (by simp) S3x12544 (m ((c : Thread nD τ).loc main_arg5)) rfl rfl 156 rfl (ValueIdx.ix2 q k)
    (fun b hb => match b, hb with | ⟨0, _⟩, hb => absurd rfl hb | ⟨1, _⟩, _ => rfl) rfl

theorem Wall_colour (c : Dev nD) (q : Fin 7) (k : Fin 12544) :
    Wall m c (ValueIdx.ix2 ⟨159 + q.val, by omega⟩ k)
      = (m ((c : Thread nD τ).loc main_arg7) : S7x12544.Idx → EReal) (ValueIdx.ix2 q k) := by
  unfold Wall
  exact concatenate_apply_piece (0 : Fin S168x12544.rank) _ _ (ValueIdx.ix2 ⟨159 + q.val, by omega⟩ k)
    3 (by simp) S7x12544 (m ((c : Thread nD τ).loc main_arg7)) rfl rfl 159 rfl (ValueIdx.ix2 q k)
    (fun b hb => match b, hb with | ⟨0, _⟩, hb => absurd rfl hb | ⟨1, _⟩, _ => rfl) rfl

theorem Wall_motion (c : Dev nD) (q : Fin 2) (k : Fin 12544) :
    Wall m c (ValueIdx.ix2 ⟨166 + q.val, by omega⟩ k)
      = (m ((c : Thread nD τ).loc main_arg9) : S2x12544.Idx → EReal) (ValueIdx.ix2 q k) := by
  unfold Wall
  exact concatenate_apply_piece (0 : Fin S168x12544.rank) _ _ (ValueIdx.ix2 ⟨166 + q.val, by omega⟩ k)
    4 (by simp) S2x12544 (m ((c : Thread nD τ).loc main_arg9)) rfl rfl 166 rfl (ValueIdx.ix2 q k)
    (fun b hb => match b, hb with | ⟨0, _⟩, hb => absurd rfl hb | ⟨1, _⟩, _ => rfl) rfl

theorem ball_cls (c : Dev nD) (q : Fin 32) :
    ball m c (ValueIdx.ix1 ⟨q.val, by omega⟩)
      = (m ((c : Thread nD τ).loc main_arg2) : S32.Idx → EReal) (ValueIdx.ix1 q) := by
  unfold ball
  exact concatenate_apply_piece (0 : Fin S168.rank) _ _ (ValueIdx.ix1 ⟨q.val, by omega⟩)
    0 (by simp) S32 (m ((c : Thread nD τ).loc main_arg2)) rfl rfl 0 rfl (ValueIdx.ix1 q)
    (fun b hb => match b, hb with | ⟨0, _⟩, hb => absurd rfl hb) (Nat.zero_add _)

theorem ball_reg (c : Dev nD) (q : Fin 124) :
    ball m c (ValueIdx.ix1 ⟨32 + q.val, by omega⟩)
      = (m ((c : Thread nD τ).loc main_arg4) : S124.Idx → EReal) (ValueIdx.ix1 q) := by
  unfold ball
  exact concatenate_apply_piece (0 : Fin S168.rank) _ _ (ValueIdx.ix1 ⟨32 + q.val, by omega⟩)
    1 (by simp) S124 (m ((c : Thread nD τ).loc main_arg4)) rfl rfl 32 rfl (ValueIdx.ix1 q)
    (fun b hb => match b, hb with | ⟨0, _⟩, hb => absurd rfl hb) rfl

theorem ball_face (c : Dev nD) (q : Fin 3) :
    ball m c (ValueIdx.ix1 ⟨156 + q.val, by omega⟩)
      = (m ((c : Thread nD τ).loc main_arg6) : S3.Idx → EReal) (ValueIdx.ix1 q) := by
  unfold ball
  exact concatenate_apply_piece (0 : Fin S168.rank) _ _ (ValueIdx.ix1 ⟨156 + q.val, by omega⟩)
    2 (by simp) S3 (m ((c : Thread nD τ).loc main_arg6)) rfl rfl 156 rfl (ValueIdx.ix1 q)
    (fun b hb => match b, hb with | ⟨0, _⟩, hb => absurd rfl hb) rfl

theorem ball_colour (c : Dev nD) (q : Fin 7) :
    ball m c (ValueIdx.ix1 ⟨159 + q.val, by omega⟩)
      = (m ((c : Thread nD τ).loc main_arg8) : S7.Idx → EReal) (ValueIdx.ix1 q) := by
  unfold ball
  exact concatenate_apply_piece (0 : Fin S168.rank) _ _ (ValueIdx.ix1 ⟨159 + q.val, by omega⟩)
    3 (by simp) S7 (m ((c : Thread nD τ).loc main_arg8)) rfl rfl 159 rfl (ValueIdx.ix1 q)
    (fun b hb => match b, hb with | ⟨0, _⟩, hb => absurd rfl hb) rfl

theorem ball_motion (c : Dev nD) (q : Fin 2) :
    ball m c (ValueIdx.ix1 ⟨166 + q.val, by omega⟩)
      = (m ((c : Thread nD τ).loc main_arg10) : S2.Idx → EReal) (ValueIdx.ix1 q) := by
  unfold ball
  exact concatenate_apply_piece (0 : Fin S168.rank) _ _ (ValueIdx.ix1 ⟨166 + q.val, by omega⟩)
    4 (by simp) S2 (m ((c : Thread nD τ).loc main_arg10)) rfl rfl 166 rfl (ValueIdx.ix1 q)
    (fun b hb => match b, hb with | ⟨0, _⟩, hb => absurd rfl hb) rfl

end Cert.KernelIdeal.Around

end
-- ==== Proof.SumSplit.lean ====
/-
  A sum over the 12544 flattened features split by spatial position: the flat index of channel `ch` at position
  `(i, j)` of a [256, 7, 7] block is `ch * 49 + i * 7 + j`, so a sum over `k < 12544` is the sum over the 7 × 7 positions
  of the sums over the 256 channels. In any additive commutative monoid (the extended reals are one), so no finiteness
  is asked of the summands.
-/
import Mathlib.Algebra.BigOperators.Fin
import Mathlib.Algebra.BigOperators.Group.Finset.Basic
import Mathlib.Data.Fintype.BigOperators

namespace Cert.SumSplit

open Finset

/-- Position `(i, j)` and channel `ch` against the flat feature index `ch * 49 + i * 7 + j`. -/
def flatEquiv : Fin 7 × Fin 7 × Fin 256 ≃ Fin 12544 where
  toFun p := ⟨p.2.2.val * 49 + p.1.val * 7 + p.2.1.val, by
    have h1 := p.1.isLt; have h2 := p.2.1.isLt; have h3 := p.2.2.isLt; omega⟩
  invFun k := (⟨k.val / 7 % 7, Nat.mod_lt _ (by decide)⟩, ⟨k.val % 7, Nat.mod_lt _ (by decide)⟩,
    ⟨k.val / 49, by have := k.isLt; omega⟩)
  left_inv := by
    rintro ⟨i, j, ch⟩
    have h1 := i.isLt; have h2 := j.isLt; have h3 := ch.isLt
    refine Prod.ext (Fin.ext ?_) (Prod.ext (Fin.ext ?_) (Fin.ext ?_))
    · show (ch.val * 49 + i.val * 7 + j.val) / 7 % 7 = i.val; omega
    · show (ch.val * 49 + i.val * 7 + j.val) % 7 = j.val; omega
    · show (ch.val * 49 + i.val * 7 + j.val) / 49 = ch.val; omega
  right_inv := by
    intro k
    have := k.isLt
    refine Fin.ext ?_
    show k.val / 49 * 49 + k.val / 7 % 7 * 7 + k.val % 7 = k.val
    omega

/-- A sum over the flat feature index, position by position and channel by channel. -/
theorem sum_flat {M : Type*} [AddCommMonoid M] (f : Fin 12544 → M) :
    ∑ k, f k = ∑ i : Fin 7, ∑ j : Fin 7, ∑ ch : Fin 256,
      f ⟨ch.val * 49 + i.val * 7 + j.val, by have h1 := i.isLt; have h2 := j.isLt; have h3 := ch.isLt; omega⟩ := by
  rw [← Fintype.sum_equiv flatEquiv (fun p => f (flatEquiv p)) f (fun _ => rfl), Fintype.sum_prod_type]
  refine Finset.sum_congr rfl fun i _ => ?_
  rw [Fintype.sum_prod_type]
  rfl

end Cert.SumSplit
-- ==== Proof.RefHeads.lean ====
/-
  The reference's five heads read at an entry.

  The reference flattens the activations x : [5000, 256, 7, 7] row-major to [5000, 12544]: flat column
  k = ch * 49 + i * 7 + j, so ch = k / 49, i = k / 7 % 7 and j = k % 7. Each head has weights W : [n, 12544] and a
  bias b : [n], and its result at row r and column q is

      (∑ k, x[r, k / 49, k / 7 % 7, k % 7] * W[q, k]) + b[q].

  All values are extended reals.
-/
import proofs.«130648_g14216341750014_cont_week2b_1508_3_alg».proof.Proof.Gen.ReferenceIdeal.Read
import Idealize.ShloMosaic.Lib.ValueIdx
import Idealize.ShloMosaic.PureOps.Ideal
import Mathlib.Algebra.BigOperators.Group.Finset.Basic

noncomputable section

namespace Cert.ReferenceIdeal.Heads

open Cert.ReferenceIdeal Cert.ReferenceIdeal.Gen Cert.ReferenceIdeal.Read Idealize.ShloMosaic Idealize.ShloMosaic.ValueIdx

/-! ## The flattening

Row r, flat column k of the flattened activations is entry (r, k / 49, k / 7 % 7, k % 7) of the activations:
r * 12544 + k is the row-major position on both sides, and k < 12544 = 256 * 49. -/

theorem unflatten (r : Fin 5000) (k : Fin 12544) :
    idx_main_v0 (ix2 r k)
      = ix4 r (⟨k.val / 49, by omega⟩ : Fin 256) (⟨k.val / 7 % 7, by omega⟩ : Fin 7) (⟨k.val % 7, by omega⟩ : Fin 7) := by
  have hr : r.val < 5000 := r.isLt
  have hk : k.val < 12544 := k.isLt
  funext a
  apply Fin.ext
  match a with
  | ⟨0, _⟩ => show (r.val * 12544 + k.val) / 12544 = r.val; omega
  | ⟨1, _⟩ => show (r.val * 12544 + k.val) / 49 % 256 = k.val / 49; omega
  | ⟨2, _⟩ => show (r.val * 12544 + k.val) / 7 % 7 = k.val / 7 % 7; omega
  | ⟨3, _⟩ => show (r.val * 12544 + k.val) % 7 = k.val % 7; omega

/-! ## The five heads -/

/-- The first head (32 columns): weights `main_arg1`, bias `main_arg2`. -/
theorem head_cls (x : S5000x256x7x7.Idx → EReal) (W : S32x12544.Idx → EReal) (b : S32.Idx → EReal)
    (r : Fin 5000) (q : Fin 32) :
    val_main_v5 (F := Ideal) x W b (ix2 r q)
      = (∑ k : Fin 12544,
          x (ix4 r (⟨k.val / 49, by omega⟩ : Fin 256) (⟨k.val / 7 % 7, by omega⟩ : Fin 7) (⟨k.val % 7, by omega⟩ : Fin 7))
            * W (ix2 q k))
        + b (ix1 q) := by
  have hb : idx_main_v3 (idx_main_v4 (ix2 r q)) = ix1 q :=
    funext fun a => Fin.ext (by match a with | ⟨0, _⟩ => rfl)
  rw [val_main_v5_apply, val_main_v2_apply, val_main_v4_apply, val_main_v3_apply, hb, Ideal.addf_def]
  refine congrArg (· + b (ix1 q)) (Finset.sum_congr rfl fun k _ => ?_)
  have hl : lidx_main_v2 (ix2 r q) k = ix2 r k :=
    funext fun a => Fin.ext (by match a with | ⟨0, _⟩ => rfl | ⟨1, _⟩ => rfl)
  have hw : idx_main_v1 (ridx_main_v2 (ix2 r q) k) = ix2 q k :=
    funext fun a => Fin.ext (by match a with | ⟨0, _⟩ => rfl | ⟨1, _⟩ => rfl)
  rw [val_main_v0_apply, val_main_v1_apply, hl, hw, unflatten]

/-- The second head (124 columns): weights `main_arg3`, bias `main_arg4`. -/
theorem head_reg (x : S5000x256x7x7.Idx → EReal) (W : S124x12544.Idx → EReal) (b : S124.Idx → EReal)
    (r : Fin 5000) (q : Fin 124) :
    val_main_v10 (F := Ideal) x W b (ix2 r q)
      = (∑ k : Fin 12544,
          x (ix4 r (⟨k.val / 49, by omega⟩ : Fin 256) (⟨k.val / 7 % 7, by omega⟩ : Fin 7) (⟨k.val % 7, by omega⟩ : Fin 7))
            * W (ix2 q k))
        + b (ix1 q) := by
  have hb : idx_main_v8 (idx_main_v9 (ix2 r q)) = ix1 q :=
    funext fun a => Fin.ext (by match a with | ⟨0, _⟩ => rfl)
  rw [val_main_v10_apply, val_main_v7_apply, val_main_v9_apply, val_main_v8_apply, hb, Ideal.addf_def]
  refine congrArg (· + b (ix1 q)) (Finset.sum_congr rfl fun k _ => ?_)
  have hl : lidx_main_v7 (ix2 r q) k = ix2 r k :=
    funext fun a => Fin.ext (by match a with | ⟨0, _⟩ => rfl | ⟨1, _⟩ => rfl)
  have hw : idx_main_v6 (ridx_main_v7 (ix2 r q) k) = ix2 q k :=
    funext fun a => Fin.ext (by match a with | ⟨0, _⟩ => rfl | ⟨1, _⟩ => rfl)
  rw [val_main_v0_apply, val_main_v6_apply, hl, hw, unflatten]

/-- The third head (3 columns): weights `main_arg5`, bias `main_arg6`. -/
theorem head_face (x : S5000x256x7x7.Idx → EReal) (W : S3x12544.Idx → EReal) (b : S3.Idx → EReal)
    (r : Fin 5000) (q : Fin 3) :
    val_main_v15 (F := Ideal) x W b (ix2 r q)
      = (∑ k : Fin 12544,
          x (ix4 r (⟨k.val / 49, by omega⟩ : Fin 256) (⟨k.val / 7 % 7, by omega⟩ : Fin 7) (⟨k.val % 7, by omega⟩ : Fin 7))
            * W (ix2 q k))
        + b (ix1 q) := by
  have hb : idx_main_v13 (idx_main_v14 (ix2 r q)) = ix1 q :=
    funext fun a => Fin.ext (by match a with | ⟨0, _⟩ => rfl)
  rw [val_main_v15_apply, val_main_v12_apply, val_main_v14_apply, val_main_v13_apply, hb, Ideal.addf_def]
  refine congrArg (· + b (ix1 q)) (Finset.sum_congr rfl fun k _ => ?_)
  have hl : lidx_main_v12 (ix2 r q) k = ix2 r k :=
    funext fun a => Fin.ext (by match a with | ⟨0, _⟩ => rfl | ⟨1, _⟩ => rfl)
  have hw : idx_main_v11 (ridx_main_v12 (ix2 r q) k) = ix2 q k :=
    funext fun a => Fin.ext (by match a with | ⟨0, _⟩ => rfl | ⟨1, _⟩ => rfl)
  rw [val_main_v0_apply, val_main_v11_apply, hl, hw, unflatten]

/-- The fourth head (7 columns): weights `main_arg7`, bias `main_arg8`. -/
theorem head_colour (x : S5000x256x7x7.Idx → EReal) (W : S7x12544.Idx → EReal) (b : S7.Idx → EReal)
    (r : Fin 5000) (q : Fin 7) :
    val_main_v20 (F := Ideal) x W b (ix2 r q)
      = (∑ k : Fin 12544,
          x (ix4 r (⟨k.val / 49, by omega⟩ : Fin 256) (⟨k.val / 7 % 7, by omega⟩ : Fin 7) (⟨k.val % 7, by omega⟩ : Fin 7))
            * W (ix2 q k))
        + b (ix1 q) := by
  have hb : idx_main_v18 (idx_main_v19 (ix2 r q)) = ix1 q :=
    funext fun a => Fin.ext (by match a with | ⟨0, _⟩ => rfl)
  rw [val_main_v20_apply, val_main_v17_apply, val_main_v19_apply, val_main_v18_apply, hb, Ideal.addf_def]
  refine congrArg (· + b (ix1 q)) (Finset.sum_congr rfl fun k _ => ?_)
  have hl : lidx_main_v17 (ix2 r q) k = ix2 r k :=
    funext fun a => Fin.ext (by match a with | ⟨0, _⟩ => rfl | ⟨1, _⟩ => rfl)
  have hw : idx_main_v16 (ridx_main_v17 (ix2 r q) k) = ix2 q k :=
    funext fun a => Fin.ext (by match a with | ⟨0, _⟩ => rfl | ⟨1, _⟩ => rfl)
  rw [val_main_v0_apply, val_main_v16_apply, hl, hw, unflatten]

/-- The fifth head (2 columns): weights `main_arg9`, bias `main_arg10`. -/
theorem head_motion (x : S5000x256x7x7.Idx → EReal) (W : S2x12544.Idx → EReal) (b : S2.Idx → EReal)
    (r : Fin 5000) (q : Fin 2) :
    val_main_v25 (F := Ideal) x W b (ix2 r q)
      = (∑ k : Fin 12544,
          x (ix4 r (⟨k.val / 49, by omega⟩ : Fin 256) (⟨k.val / 7 % 7, by omega⟩ : Fin 7) (⟨k.val % 7, by omega⟩ : Fin 7))
            * W (ix2 q k))
        + b (ix1 q) := by
  have hb : idx_main_v23 (idx_main_v24 (ix2 r q)) = ix1 q :=
    funext fun a => Fin.ext (by match a with | ⟨0, _⟩ => rfl)
  rw [val_main_v25_apply, val_main_v22_apply, val_main_v24_apply, val_main_v23_apply, hb, Ideal.addf_def]
  refine congrArg (· + b (ix1 q)) (Finset.sum_congr rfl fun k _ => ?_)
  have hl : lidx_main_v22 (ix2 r q) k = ix2 r k :=
    funext fun a => Fin.ext (by match a with | ⟨0, _⟩ => rfl | ⟨1, _⟩ => rfl)
  have hw : idx_main_v21 (ridx_main_v22 (ix2 r q) k) = ix2 q k :=
    funext fun a => Fin.ext (by match a with | ⟨0, _⟩ => rfl | ⟨1, _⟩ => rfl)
  rw [val_main_v0_apply, val_main_v21_apply, hl, hw, unflatten]

end Cert.ReferenceIdeal.Heads

end
-- ==== Proof.KIHeads.lean ====
/-
  The five results of the idealized kernel program are the reference's five heads. Entry (r, o) of the launch's result
  array is  b_all (o) + Σ_i Σ_j Σ_ch x (r, ch, i, j) · W_all (o, ch·49 + i·7 + j)  (the arrays the launch reads are the
  transposed activations, the stacked weights re-laid by position, the stacked biases); summing position by position and
  channel by channel is summing over the flat feature index k = ch·49 + i·7 + j, and addition of extended reals is
  commutative, so this is  (Σ_k xf (r, k) · W_all (o, k)) + b_all (o): the reference's head whose rows the stacked row o
  belongs to. The five results are the column slices of the result array at the heads' offsets 0, 32, 156, 159, 166.
-/
import proofs.«130648_g14216341750014_cont_week2b_1508_3_alg».proof.Proof.KIValue
import proofs.«130648_g14216341750014_cont_week2b_1508_3_alg».proof.Proof.KIEntry
import proofs.«130648_g14216341750014_cont_week2b_1508_3_alg».proof.Proof.SumSplit
import proofs.«130648_g14216341750014_cont_week2b_1508_3_alg».proof.Proof.RefHeads

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open ValueIdx

variable (m : (ℓ : Loc nD τ sig) → Buf (Elt Ideal) ℓ) (ρ : Dev nD → PrngReg)

/-- The activations as launched. -/
abbrev xArg (c : Dev nD) : S5000x256x7x7.Idx → EReal := m ((c : Thread nD τ).loc main_arg0)

/-- The feature with flat index `ch·49 + i·7 + j` is channel `ch` at position `(i, j)`. -/
theorem unflat_eq (r : Fin 5000) (i j : Fin 7) (ch : Fin 256) :
    (ix4 r ch i j : S5000x256x7x7.Idx)
      = ix4 r (⟨(ch.val * 49 + i.val * 7 + j.val) / 49, by omega⟩ : Fin 256) (⟨(ch.val * 49 + i.val * 7 + j.val) / 7 % 7, by omega⟩ : Fin 7)
          (⟨(ch.val * 49 + i.val * 7 + j.val) % 7, by omega⟩ : Fin 7) := by
  funext a
  match a with
  | ⟨0, _⟩ => rfl
  | ⟨1, _⟩ => exact Fin.ext (by show ch.val = (ch.val * 49 + i.val * 7 + j.val) / 49; omega)
  | ⟨2, _⟩ => exact Fin.ext (by show i.val = (ch.val * 49 + i.val * 7 + j.val) / 7 % 7; omega)
  | ⟨3, _⟩ => exact Fin.ext (by show j.val = (ch.val * 49 + i.val * 7 + j.val) % 7; omega)

/-- Entry `(r, o)` of the launch's result as a sum over the flat feature index, the bias last. -/
theorem outAt_flat (c : Dev nD) (r : Fin 5000) (o : Fin 168) :
    outAt m c r o = (∑ k : Fin 12544, xArg m c (ix4 r (⟨k.val / 49, by omega⟩ : Fin 256) (⟨k.val / 7 % 7, by omega⟩ : Fin 7) (⟨k.val % 7, by omega⟩ : Fin 7))
        * Wall m c (ix2 o k)) + ball m c (ix1 o) := by
  unfold outAt
  rw [show Barr m c (ix2 (0 : Fin 1) o) = ball m c (ix1 o) from entry_b m c o, add_comm (ball m c (ix1 o)), Cert.SumSplit.sum_flat]
  refine congrArg (· + ball m c (ix1 o)) ?_
  refine Finset.sum_congr rfl fun i _ => Finset.sum_congr rfl fun j _ => Finset.sum_congr rfl fun ch _ => ?_
  have h1 : Xarr m c (ix4 i j r ch) = xArg m c (ix4 r (⟨(ch.val * 49 + i.val * 7 + j.val) / 49, by omega⟩ : Fin 256)
      (⟨(ch.val * 49 + i.val * 7 + j.val) / 7 % 7, by omega⟩ : Fin 7) (⟨(ch.val * 49 + i.val * 7 + j.val) % 7, by omega⟩ : Fin 7)) :=
    (entry_x m c i j r ch).trans (congrArg (xArg m c) (unflat_eq r i j ch))
  have h2 : Warr m c (ix4 i j ch o) = Wall m c (ix2 o ⟨ch.val * 49 + i.val * 7 + j.val, by omega⟩) := entry_w m c i j ch o
  rw [h1, h2]

/-- A column slice of the result array at an entry. -/
theorem slice_apply {n : Nat} (off : Nat) (h : S5000x168.Slices ![0, off] ⟨2, ![5000, n]⟩) (c : Dev nD) (r : Fin 5000) (q : Fin n)
    (ho : off + q.val < 168) :
    extractStridedSlice ⟨2, ![5000, n]⟩ ![0, off] (outArr m c) h (ix2 r q) = outAt m c r ⟨off + q.val, ho⟩ := by
  rw [extractStridedSlice_apply ![0, off] (outArr m c) h (ix2 r q) (ix2 r ⟨off + q.val, ho⟩)
    (fun a => by match a with | ⟨0, _⟩ => exact (Nat.zero_add _).symm | ⟨1, _⟩ => rfl)]
  show outAt m c _ _ = outAt m c _ _
  exact congrArg₂ (outAt m c) (Fin.ext rfl) (Fin.ext rfl)

/-! ## The reference's heads of the arguments as launched -/

/-- The reference's `cls` head of core `c`'s arguments. -/
def headCls (c : Dev nD) : S5000x32.Idx → EReal :=
  Cert.ReferenceIdeal.Read.val_main_v5 (F := Ideal) (m ((c : Thread nD τ).loc main_arg0)) (m ((c : Thread nD τ).loc main_arg1)) (m ((c : Thread nD τ).loc main_arg2))

/-- The reference's `reg` head of core `c`'s arguments. -/
def headReg (c : Dev nD) : S5000x124.Idx → EReal :=
  Cert.ReferenceIdeal.Read.val_main_v10 (F := Ideal) (m ((c : Thread nD τ).loc main_arg0)) (m ((c : Thread nD τ).loc main_arg3)) (m ((c : Thread nD τ).loc main_arg4))

/-- The reference's `face` head of core `c`'s arguments. -/
def headFace (c : Dev nD) : S5000x3.Idx → EReal :=
  Cert.ReferenceIdeal.Read.val_main_v15 (F := Ideal) (m ((c : Thread nD τ).loc main_arg0)) (m ((c : Thread nD τ).loc main_arg5)) (m ((c : Thread nD τ).loc main_arg6))

/-- The reference's `colour` head of core `c`'s arguments. -/
def headColour (c : Dev nD) : S5000x7.Idx → EReal :=
  Cert.ReferenceIdeal.Read.val_main_v20 (F := Ideal) (m ((c : Thread nD τ).loc main_arg0)) (m ((c : Thread nD τ).loc main_arg7)) (m ((c : Thread nD τ).loc main_arg8))

/-- The reference's `motion` head of core `c`'s arguments. -/
def headMotion (c : Dev nD) : S5000x2.Idx → EReal :=
  Cert.ReferenceIdeal.Read.val_main_v25 (F := Ideal) (m ((c : Thread nD τ).loc main_arg0)) (m ((c : Thread nD τ).loc main_arg9)) (m ((c : Thread nD τ).loc main_arg10))

/-! ## Head by head -/

/-- The columns `[0, 32)` of the result array are the reference's `cls` head. -/
theorem slice_cls (c : Dev nD) :
    extractStridedSlice S5000x32 ![0, 0] (outArr m c) slices_S5000x168_S5000x32_0_0
      = headCls m c := by
  unfold headCls
  funext y
  obtain ⟨r, q, rfl⟩ : ∃ (r : Fin 5000) (q : Fin 32), y = ix2 r q := ⟨y 0, y 1, eq_ix2 y⟩
  rw [slice_apply m 0 slices_S5000x168_S5000x32_0_0 c r q (by omega), outAt_flat, Cert.ReferenceIdeal.Heads.head_cls]
  rw [show (⟨0 + q.val, by omega⟩ : Fin 168) = ⟨q.val, by omega⟩ from Fin.ext (Nat.zero_add _)]
  simp only [Wall_cls, ball_cls]

/-- The columns `[32, 156)` of the result array are the reference's `reg` head. -/
theorem slice_reg (c : Dev nD) :
    extractStridedSlice S5000x124 ![0, 32] (outArr m c) slices_S5000x168_S5000x124_0_32
      = headReg m c := by
  unfold headReg
  funext y
  obtain ⟨r, q, rfl⟩ : ∃ (r : Fin 5000) (q : Fin 124), y = ix2 r q := ⟨y 0, y 1, eq_ix2 y⟩
  rw [slice_apply m 32 slices_S5000x168_S5000x124_0_32 c r q (by omega), outAt_flat, Cert.ReferenceIdeal.Heads.head_reg]
  simp only [Wall_reg, ball_reg]

/-- The columns `[156, 159)` of the result array are the reference's `face` head. -/
theorem slice_face (c : Dev nD) :
    extractStridedSlice S5000x3 ![0, 156] (outArr m c) slices_S5000x168_S5000x3_0_156
      = headFace m c := by
  unfold headFace
  funext y
  obtain ⟨r, q, rfl⟩ : ∃ (r : Fin 5000) (q : Fin 3), y = ix2 r q := ⟨y 0, y 1, eq_ix2 y⟩
  rw [slice_apply m 156 slices_S5000x168_S5000x3_0_156 c r q (by omega), outAt_flat, Cert.ReferenceIdeal.Heads.head_face]
  simp only [Wall_face, ball_face]

/-- The columns `[159, 166)` of the result array are the reference's `colour` head. -/
theorem slice_colour (c : Dev nD) :
    extractStridedSlice S5000x7 ![0, 159] (outArr m c) slices_S5000x168_S5000x7_0_159
      = headColour m c := by
  unfold headColour
  funext y
  obtain ⟨r, q, rfl⟩ : ∃ (r : Fin 5000) (q : Fin 7), y = ix2 r q := ⟨y 0, y 1, eq_ix2 y⟩
  rw [slice_apply m 159 slices_S5000x168_S5000x7_0_159 c r q (by omega), outAt_flat, Cert.ReferenceIdeal.Heads.head_colour]
  simp only [Wall_colour, ball_colour]

/-- The columns `[166, 168)` of the result array are the reference's `motion` head. -/
theorem slice_motion (c : Dev nD) :
    extractStridedSlice S5000x2 ![0, 166] (outArr m c) slices_S5000x168_S5000x2_0_166
      = headMotion m c := by
  unfold headMotion
  funext y
  obtain ⟨r, q, rfl⟩ : ∃ (r : Fin 5000) (q : Fin 2), y = ix2 r q := ⟨y 0, y 1, eq_ix2 y⟩
  rw [slice_apply m 166 slices_S5000x168_S5000x2_0_166 c r q (by omega), outAt_flat, Cert.ReferenceIdeal.Heads.head_motion]
  simp only [Wall_motion, ball_motion]

/-! ## The results after the later lines -/

/-- Core `c`'s buffers when the launch is left: the launch's arrays as its write-backs made them, the rest as it found them. -/
abbrev exitVal (c : Dev nD) : Valuation τ sig (Elt Ideal) := (Pipeline.withArrays (cfgs 0).spec c (V0 m c) (fun w => (dats m 0 c).arrAt w (cfgs 0).N))

/-- After the launch the result buffer holds the result array. -/
theorem tail_arr (c : Dev nD) : (exitVal m c (Proc.devRef .tc main_v7) : S5000x168.Idx → EReal) = outArr m c :=
  (Pipeline.withArrays_arr spec0 launch0.win.arr_inj c _ _ 3).trans (final m c)

/-- The later lines leave in `main_v8` the columns `[0, 32)` of whatever the result buffer held. -/
theorem tail_cls (Y : Valuation τ sig (Elt Ideal)) :
    (StableHlo.after (hostOps1 (F := Ideal)) Y (Proc.devRef .tc main_v8) : S5000x32.Idx → EReal)
      = extractStridedSlice S5000x32 ![0, 0] (Y (Proc.devRef .tc main_v7)) slices_S5000x168_S5000x32_0_0 := by
  after_results <;> rfl

/-- Result `main_v8` after the later lines is that slice of what the result buffer held when the launch was left, -/
theorem res_cls_exit (c : Dev nD) : (Pipeline.afterTail₀ cfgs (dats m) 0 (V0 m) [hostOps1] c main_v8 : S5000x32.Idx → EReal)
    = extractStridedSlice S5000x32 ![0, 0] (exitVal m c (Proc.devRef .tc main_v7)) slices_S5000x168_S5000x32_0_0 :=
  tail_cls (exitVal m c)

/-- which is the result array, -/
theorem res_cls_arr (c : Dev nD) : extractStridedSlice S5000x32 ![0, 0] (exitVal m c (Proc.devRef .tc main_v7)) slices_S5000x168_S5000x32_0_0
    = extractStridedSlice S5000x32 ![0, 0] (outArr m c) slices_S5000x168_S5000x32_0_0 :=
  congrArg (fun X : S5000x168.Idx → EReal => extractStridedSlice S5000x32 ![0, 0] X slices_S5000x168_S5000x32_0_0) (tail_arr m c)

/-- so it is the reference's `cls` head of the arguments as launched. -/
theorem res_cls (c : Dev nD) : (Pipeline.afterTail₀ cfgs (dats m) 0 (V0 m) [hostOps1] c main_v8 : S5000x32.Idx → EReal)
    = headCls m c :=
  (res_cls_exit m c).trans ((res_cls_arr m c).trans (slice_cls m c))

/-- The later lines leave in `main_v9` the columns `[32, 156)` of whatever the result buffer held. -/
theorem tail_reg (Y : Valuation τ sig (Elt Ideal)) :
    (StableHlo.after (hostOps1 (F := Ideal)) Y (Proc.devRef .tc main_v9) : S5000x124.Idx → EReal)
      = extractStridedSlice S5000x124 ![0, 32] (Y (Proc.devRef .tc main_v7)) slices_S5000x168_S5000x124_0_32 := by
  after_results <;> rfl

/-- Result `main_v9` after the later lines is that slice of what the result buffer held when the launch was left, -/
theorem res_reg_exit (c : Dev nD) : (Pipeline.afterTail₀ cfgs (dats m) 0 (V0 m) [hostOps1] c main_v9 : S5000x124.Idx → EReal)
    = extractStridedSlice S5000x124 ![0, 32] (exitVal m c (Proc.devRef .tc main_v7)) slices_S5000x168_S5000x124_0_32 :=
  tail_reg (exitVal m c)

/-- which is the result array, -/
theorem res_reg_arr (c : Dev nD) : extractStridedSlice S5000x124 ![0, 32] (exitVal m c (Proc.devRef .tc main_v7)) slices_S5000x168_S5000x124_0_32
    = extractStridedSlice S5000x124 ![0, 32] (outArr m c) slices_S5000x168_S5000x124_0_32 :=
  congrArg (fun X : S5000x168.Idx → EReal => extractStridedSlice S5000x124 ![0, 32] X slices_S5000x168_S5000x124_0_32) (tail_arr m c)

/-- so it is the reference's `reg` head of the arguments as launched. -/
theorem res_reg (c : Dev nD) : (Pipeline.afterTail₀ cfgs (dats m) 0 (V0 m) [hostOps1] c main_v9 : S5000x124.Idx → EReal)
    = headReg m c :=
  (res_reg_exit m c).trans ((res_reg_arr m c).trans (slice_reg m c))

/-- The later lines leave in `main_v10` the columns `[156, 159)` of whatever the result buffer held. -/
theorem tail_face (Y : Valuation τ sig (Elt Ideal)) :
    (StableHlo.after (hostOps1 (F := Ideal)) Y (Proc.devRef .tc main_v10) : S5000x3.Idx → EReal)
      = extractStridedSlice S5000x3 ![0, 156] (Y (Proc.devRef .tc main_v7)) slices_S5000x168_S5000x3_0_156 := by
  after_results <;> rfl

/-- Result `main_v10` after the later lines is that slice of what the result buffer held when the launch was left, -/
theorem res_face_exit (c : Dev nD) : (Pipeline.afterTail₀ cfgs (dats m) 0 (V0 m) [hostOps1] c main_v10 : S5000x3.Idx → EReal)
    = extractStridedSlice S5000x3 ![0, 156] (exitVal m c (Proc.devRef .tc main_v7)) slices_S5000x168_S5000x3_0_156 :=
  tail_face (exitVal m c)

/-- which is the result array, -/
theorem res_face_arr (c : Dev nD) : extractStridedSlice S5000x3 ![0, 156] (exitVal m c (Proc.devRef .tc main_v7)) slices_S5000x168_S5000x3_0_156
    = extractStridedSlice S5000x3 ![0, 156] (outArr m c) slices_S5000x168_S5000x3_0_156 :=
  congrArg (fun X : S5000x168.Idx → EReal => extractStridedSlice S5000x3 ![0, 156] X slices_S5000x168_S5000x3_0_156) (tail_arr m c)

/-- so it is the reference's `face` head of the arguments as launched. -/
theorem res_face (c : Dev nD) : (Pipeline.afterTail₀ cfgs (dats m) 0 (V0 m) [hostOps1] c main_v10 : S5000x3.Idx → EReal)
    = headFace m c :=
  (res_face_exit m c).trans ((res_face_arr m c).trans (slice_face m c))

/-- The later lines leave in `main_v11` the columns `[159, 166)` of whatever the result buffer held. -/
theorem tail_colour (Y : Valuation τ sig (Elt Ideal)) :
    (StableHlo.after (hostOps1 (F := Ideal)) Y (Proc.devRef .tc main_v11) : S5000x7.Idx → EReal)
      = extractStridedSlice S5000x7 ![0, 159] (Y (Proc.devRef .tc main_v7)) slices_S5000x168_S5000x7_0_159 := by
  after_results <;> rfl

/-- Result `main_v11` after the later lines is that slice of what the result buffer held when the launch was left, -/
theorem res_colour_exit (c : Dev nD) : (Pipeline.afterTail₀ cfgs (dats m) 0 (V0 m) [hostOps1] c main_v11 : S5000x7.Idx → EReal)
    = extractStridedSlice S5000x7 ![0, 159] (exitVal m c (Proc.devRef .tc main_v7)) slices_S5000x168_S5000x7_0_159 :=
  tail_colour (exitVal m c)

/-- which is the result array, -/
theorem res_colour_arr (c : Dev nD) : extractStridedSlice S5000x7 ![0, 159] (exitVal m c (Proc.devRef .tc main_v7)) slices_S5000x168_S5000x7_0_159
    = extractStridedSlice S5000x7 ![0, 159] (outArr m c) slices_S5000x168_S5000x7_0_159 :=
  congrArg (fun X : S5000x168.Idx → EReal => extractStridedSlice S5000x7 ![0, 159] X slices_S5000x168_S5000x7_0_159) (tail_arr m c)

/-- so it is the reference's `colour` head of the arguments as launched. -/
theorem res_colour (c : Dev nD) : (Pipeline.afterTail₀ cfgs (dats m) 0 (V0 m) [hostOps1] c main_v11 : S5000x7.Idx → EReal)
    = headColour m c :=
  (res_colour_exit m c).trans ((res_colour_arr m c).trans (slice_colour m c))

/-- The later lines leave in `main_v12` the columns `[166, 168)` of whatever the result buffer held. -/
theorem tail_motion (Y : Valuation τ sig (Elt Ideal)) :
    (StableHlo.after (hostOps1 (F := Ideal)) Y (Proc.devRef .tc main_v12) : S5000x2.Idx → EReal)
      = extractStridedSlice S5000x2 ![0, 166] (Y (Proc.devRef .tc main_v7)) slices_S5000x168_S5000x2_0_166 := by
  after_results <;> rfl

/-- Result `main_v12` after the later lines is that slice of what the result buffer held when the launch was left, -/
theorem res_motion_exit (c : Dev nD) : (Pipeline.afterTail₀ cfgs (dats m) 0 (V0 m) [hostOps1] c main_v12 : S5000x2.Idx → EReal)
    = extractStridedSlice S5000x2 ![0, 166] (exitVal m c (Proc.devRef .tc main_v7)) slices_S5000x168_S5000x2_0_166 :=
  tail_motion (exitVal m c)

/-- which is the result array, -/
theorem res_motion_arr (c : Dev nD) : extractStridedSlice S5000x2 ![0, 166] (exitVal m c (Proc.devRef .tc main_v7)) slices_S5000x168_S5000x2_0_166
    = extractStridedSlice S5000x2 ![0, 166] (outArr m c) slices_S5000x168_S5000x2_0_166 :=
  congrArg (fun X : S5000x168.Idx → EReal => extractStridedSlice S5000x2 ![0, 166] X slices_S5000x168_S5000x2_0_166) (tail_arr m c)

/-- so it is the reference's `motion` head of the arguments as launched. -/
theorem res_motion (c : Dev nD) : (Pipeline.afterTail₀ cfgs (dats m) 0 (V0 m) [hostOps1] c main_v12 : S5000x2.Idx → EReal)
    = headMotion m c :=
  (res_motion_exit m c).trans ((res_motion_arr m c).trans (slice_motion m c))

/-! ## The run, read -/

/-- Every weakly fair execution of the idealized kernel program ends with its five results at the reference's five heads of
    the arguments as launched, and the arguments unchanged. -/
theorem run_heads : θ_run defs (onTc (τ := τ) (main (F := Ideal))) ⟨m, fun _ => 0, ρ⟩ (fun r => ∀ c : Dev nD,
      r.2.mem ((c.tc : Thread nD τ).loc main_v8) = headCls m c
      ∧ r.2.mem ((c.tc : Thread nD τ).loc main_v9) = headReg m c
      ∧ r.2.mem ((c.tc : Thread nD τ).loc main_v10) = headFace m c
      ∧ r.2.mem ((c.tc : Thread nD τ).loc main_v11) = headColour m c
      ∧ r.2.mem ((c.tc : Thread nD τ).loc main_v12) = headMotion m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v8 (Pipeline.mem_restRefs_of main_v8 (by decide) (by decide))).trans (res_cls m c),
      ((h c).2 main_v9 (Pipeline.mem_restRefs_of main_v9 (by decide) (by decide))).trans (res_reg m c),
      ((h c).2 main_v10 (Pipeline.mem_restRefs_of main_v10 (by decide) (by decide))).trans (res_face m c),
      ((h c).2 main_v11 (Pipeline.mem_restRefs_of main_v11 (by decide) (by decide))).trans (res_colour m c),
      ((h c).2 main_v12 (Pipeline.mem_restRefs_of main_v12 (by decide) (by decide))).trans (res_motion m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)

end Cert.KernelIdeal.Around

end
-- ==== Proof.lean ====
/-
  The five claims. The kernel program transposes the activations to put the 7 × 7 spatial positions in front, stacks the five
  heads' weights and biases, and computes all 168 output columns in one launch: for each block of 200 rows, the bias row
  plus, position by position, the product of that position's [200, 256] slab of activations with its [256, 168] slab of
  weights; the five results are column slices. The reference flattens each row's [256, 7, 7] features to 12544 and computes
  the five heads separately as xf · Wᵀ + b. Over the extended reals both are, entry by entry, the same sum of products
  (a sum over the flat feature index is the sum over positions of the sums over channels) plus the same bias, and addition
  is commutative and associative there: no finiteness of the inputs is used. The three frames: each program runs to the end
  and leaves its argument arrays as launched (the kernel programs' from the launch's certificate, the reference's from its
  run). The ideal pass rewrote nothing, so `preserves` has no conjunct.
-/
import proofs.«130648_g14216341750014_cont_week2b_1508_3_alg».proof.Defs
import proofs.«130648_g14216341750014_cont_week2b_1508_3_alg».proof.Proof.Gen.Kernel
import proofs.«130648_g14216341750014_cont_week2b_1508_3_alg».proof.Proof.Gen.KernelIdeal
import proofs.«130648_g14216341750014_cont_week2b_1508_3_alg».proof.Proof.Gen.ReferenceIdeal
import proofs.«130648_g14216341750014_cont_week2b_1508_3_alg».proof.Proof.Gen.Pre_finite_inputs
import proofs.«130648_g14216341750014_cont_week2b_1508_3_alg».proof.Proof.Gen.ReferenceIdeal.Run
import proofs.«130648_g14216341750014_cont_week2b_1508_3_alg».proof.Proof.KFrame
import proofs.«130648_g14216341750014_cont_week2b_1508_3_alg».proof.Proof.KIHeads
import Idealize.ShloMosaic.Adequacy
import Idealize.ShloMosaic.Init

noncomputable section

namespace Cert.Proof

open Idealize.ShloMosaic Idealize.SL.Sem

/-- The kernel program as printed runs to the end and leaves its arguments as launched. -/
theorem frame_p : Cert.frame_Kernel := fun m ρ _ => Cert.Kernel.Around.frame m ρ

/-- So does its idealization. -/
theorem frame_pi : Cert.frame_KernelIdeal := fun m ρ _ => Cert.KernelIdeal.Around.frame m ρ

/-- And the reference: its run with the results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The ideal pass rewrote no operation. -/
theorem preserves : Cert.preserves_Kernel_KernelIdeal := trivial

/-- From memories agreeing on the arguments both idealized programs end with the five heads of those arguments. -/
theorem algebraic : Cert.algebraic_KernelIdeal_ReferenceIdeal := by
  intro m ρ m' ρ' _ hagree
  refine ⟨fun c => Cert.ReferenceIdeal.Read.val_main_v5 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.ReferenceIdeal.Read.val_main_v10 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v15 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v20 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Around.run_heads m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  obtain ⟨h5, h10, h15, h20, h25, hargs⟩ := h c
  refine ⟨h5.trans ?_, h10.trans ?_, h15.trans ?_, h20.trans ?_, h25.trans ?_, hargs⟩
  · rw [a0, a1, a2]; rfl
  · rw [a0, a3, a4]; rfl
  · rw [a0, a5, a6]; rfl
  · rw [a0, a7, a8]; rfl
  · rw [a0, a9, a10]; rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
